-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S64 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1200000 32) (main_arg2 : IVec S100000 32) (main_arg3 : FVec F S128x64 .f32) (main_arg4 : FVec F S64 .f32) (main_arg5 : FVec F S64x64 .f32) (main_arg6 : FVec F S64 .f32) (main_arg7 : FVec F S64x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1200000x64 : Shape := ⟨2, ![1200000, 64]⟩
abbrev S1x64 : Shape := ⟨2, ![1, 64]⟩
abbrev S5000x1 : Shape := ⟨2, ![5000, 1]⟩
abbrev S100000x16 : Shape := ⟨2, ![100000, 16]⟩
abbrev S5000x16 : Shape := ⟨2, ![5000, 16]⟩
abbrev S1200000x16 : Shape := ⟨2, ![1200000, 16]⟩
abbrev S1x16 : Shape := ⟨2, ![1, 16]⟩
abbrev S512x16 : Shape := ⟨2, ![512, 16]⟩
abbrev S1x512 : Shape := ⟨2, ![1, 512]⟩
abbrev S5000x512 : Shape := ⟨2, ![5000, 512]⟩
abbrev S500x16 : Shape := ⟨2, ![500, 16]⟩
abbrev S500 : Shape := ⟨1, ![500]⟩
abbrev S500x1 : Shape := ⟨2, ![500, 1]⟩

abbrev nBuf : Space → Nat
  | .hbm => 157
  | .vmem => 47
  | .smem => 0
  | _ => 0

abbrev hbmTy0_0 (i : Nat) : BufTy := match i % 128 with
  | 0 => ⟨S100000x128, .f32⟩
  | 1 => ⟨S2x1200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x16, .f32⟩
  | 8 => ⟨S16, .f32⟩
  | 9 => ⟨S1x1200000, .i32⟩
  | 10 => ⟨S1200000, .i32⟩
  | 11 => ⟨S1x1200000, .i32⟩
  | 12 => ⟨S1200000, .i32⟩
  | 13 => ⟨S_, .f32⟩
  | 14 => ⟨S1200000, .f32⟩
  | 15 => ⟨S_, .f32⟩
  | 16 => ⟨S100000, .f32⟩
  | 17 => ⟨S1200000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000, .f32⟩
  | 26 => ⟨S100000x1, .f32⟩
  | 27 => ⟨S100000x64, .f32⟩
  | 28 => ⟨S_, .i32⟩
  | 29 => ⟨S1200000, .i32⟩
  | 30 => ⟨S1200000, .i1⟩
  | 31 => ⟨S_, .i32⟩
  | 32 => ⟨S1200000, .i32⟩
  | 33 => ⟨S1200000, .i32⟩
  | 34 => ⟨S1200000, .i32⟩
  | 35 => ⟨S1200000x1, .i32⟩
  | 36 => ⟨S1200000, .f32⟩
  | 37 => ⟨S_, .i32⟩
  | 38 => ⟨S1200000, .i32⟩
  | 39 => ⟨S1200000, .i1⟩
  | 40 => ⟨S_, .i32⟩
  | 41 => ⟨S1200000, .i32⟩
  | 42 => ⟨S1200000, .i32⟩
  | 43 => ⟨S1200000, .i32⟩
  | 44 => ⟨S1200000x1, .i32⟩
  | 45 => ⟨S1200000, .f32⟩
  | 46 => ⟨S1200000, .f32⟩
  | 47 => ⟨S_, .i32⟩
  | 48 => ⟨S1200000, .i32⟩
  | 49 => ⟨S1200000, .i1⟩
  | 50 => ⟨S_, .i32⟩
  | 51 => ⟨S1200000, .i32⟩
  | 52 => ⟨S1200000, .i32⟩
  | 53 => ⟨S1200000, .i32⟩
  | 54 => ⟨S1200000x1, .i32⟩
  | 55 => ⟨S1200000x64, .f32⟩
  | 56 => ⟨S1200000x1, .f32⟩
  | 57 => ⟨S1200000x64, .f32⟩
  | 58 => ⟨S1200000x64, .f32⟩
  | 59 => ⟨S_, .f32⟩
  | 60 => ⟨S100000x64, .f32⟩
  | 61 => ⟨S1200000x1, .i32⟩
  | 62 => ⟨S100000x64, .f32⟩
  | 63 => ⟨S1x64, .f32⟩
  | 64 => ⟨S100000x64, .f32⟩
  | 65 => ⟨S100000x64, .f32⟩
  | 66 => ⟨S_, .i32⟩
  | 67 => ⟨S1200000, .i32⟩
  | 68 => ⟨S1200000, .i1⟩
  | 69 => ⟨S_, .i32⟩
  | 70 => ⟨S1200000, .i32⟩
  | 71 => ⟨S1200000, .i32⟩
  | 72 => ⟨S1200000, .i32⟩
  | 73 => ⟨S1200000x1, .i32⟩
  | 74 => ⟨S1200000, .f32⟩
  | 75 => ⟨S_, .i32⟩
  | 76 => ⟨S1200000, .i32⟩
  | 77 => ⟨S1200000, .i1⟩
  | 78 => ⟨S_, .i32⟩
  | 79 => ⟨S1200000, .i32⟩
  | 80 => ⟨S1200000, .i32⟩
  | 81 => ⟨S1200000, .i32⟩
  | 82 => ⟨S1200000x1, .i32⟩
  | 83 => ⟨S1200000, .f32⟩
  | 84 => ⟨S1200000, .f32⟩
  | 85 => ⟨S_, .i32⟩
  | 86 => ⟨S1200000, .i32⟩
  | 87 => ⟨S1200000, .i1⟩
  | 88 => ⟨S_, .i32⟩
  | 89 => ⟨S1200000, .i32⟩
  | 90 => ⟨S1200000, .i32⟩
  | 91 => ⟨S1200000, .i32⟩
  | 92 => ⟨S1200000x1, .i32⟩
  | 93 => ⟨S1200000x64, .f32⟩
  | 94 => ⟨S1200000x1, .f32⟩
  | 95 => ⟨S1200000x64, .f32⟩
  | 96 => ⟨S1200000x64, .f32⟩
  | 97 => ⟨S_, .f32⟩
  | 98 => ⟨S100000x64, .f32⟩
  | 99 => ⟨S1200000x1, .i32⟩
  | 100 => ⟨S100000x64, .f32⟩
  | 101 => ⟨S1x64, .f32⟩
  | 102 => ⟨S100000x64, .f32⟩
  | 103 => ⟨S100000x16, .f32⟩
  | 104 => ⟨S_, .i32⟩
  | 105 => ⟨S1200000, .i32⟩
  | 106 => ⟨S1200000, .i1⟩
  | 107 => ⟨S_, .i32⟩
  | 108 => ⟨S1200000, .i32⟩
  | 109 => ⟨S1200000, .i32⟩
  | 110 => ⟨S1200000, .i32⟩
  | 111 => ⟨S1200000x1, .i32⟩
  | 112 => ⟨S1200000, .f32⟩
  | 113 => ⟨S_, .i32⟩
  | 114 => ⟨S1200000, .i32⟩
  | 115 => ⟨S1200000, .i1⟩
  | 116 => ⟨S_, .i32⟩
  | 117 => ⟨S1200000, .i32⟩
  | 118 => ⟨S1200000, .i32⟩
  | 119 => ⟨S1200000, .i32⟩
  | 120 => ⟨S1200000x1, .i32⟩
  | 121 => ⟨S1200000, .f32⟩
  | 122 => ⟨S1200000, .f32⟩
  | 123 => ⟨S_, .i32⟩
  | 124 => ⟨S1200000, .i32⟩
  | 125 => ⟨S1200000, .i1⟩
  | 126 => ⟨S_, .i32⟩
  | 127 => ⟨S1200000, .i32⟩
  | _ => ⟨S100000x128, .f32⟩

abbrev hbmTy0_1 (i : Nat) : BufTy := match i % 128 with
  | 0 => ⟨S1200000, .i32⟩
  | 1 => ⟨S1200000, .i32⟩
  | 2 => ⟨S1200000x1, .i32⟩
  | 3 => ⟨S1200000x16, .f32⟩
  | 4 => ⟨S1200000x1, .f32⟩
  | 5 => ⟨S1200000x16, .f32⟩
  | 6 => ⟨S1200000x16, .f32⟩
  | 7 => ⟨S_, .f32⟩
  | 8 => ⟨S100000x16, .f32⟩
  | 9 => ⟨S1200000x1, .i32⟩
  | 10 => ⟨S100000x16, .f32⟩
  | 11 => ⟨S1x16, .f32⟩
  | 12 => ⟨S100000x16, .f32⟩
  | 13 => ⟨S100000x1, .i32⟩
  | 14 => ⟨S512x16, .f32⟩
  | 15 => ⟨S500x16, .f32⟩
  | 16 => ⟨S_, .f32⟩
  | 17 => ⟨S100000, .f32⟩
  | 18 => ⟨S_, .f32⟩
  | 19 => ⟨S500, .f32⟩
  | 20 => ⟨S100000x1, .i32⟩
  | 21 => ⟨S500, .f32⟩
  | 22 => ⟨S_, .f32⟩
  | 23 => ⟨S_, .f32⟩
  | 24 => ⟨S500, .f32⟩
  | 25 => ⟨S500, .f32⟩
  | 26 => ⟨S500x1, .f32⟩
  | 27 => ⟨S500x16, .f32⟩
  | 28 => ⟨S500x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x16, .f32⟩
  | .local _ .vmem, ⟨31, _⟩ => ⟨S5000x16, .f32⟩
  | .local _ .vmem, ⟨32, _⟩ => ⟨S5000x16, .f32⟩
  | .local _ .vmem, ⟨33, _⟩ => ⟨S5000x16, .f32⟩
  | .local _ .vmem, ⟨34, _⟩ => ⟨S5000x16, .f32⟩
  | .local _ .vmem, ⟨35, _⟩ => ⟨S5000x1, .f32⟩
  | .local _ .vmem, ⟨36, _⟩ => ⟨S5000x1, .f32⟩
  | .local _ .vmem, ⟨37, _⟩ => ⟨S5000x16, .f32⟩
  | .local _ .vmem, ⟨38, _⟩ => ⟨S5000x16, .f32⟩
  | .local _ .vmem, ⟨39, _⟩ => ⟨S1x16, .f32⟩
  | .local _ .vmem, ⟨40, _⟩ => ⟨S5000x16, .f32⟩
  | .local _ .vmem, ⟨41, _⟩ => ⟨S5000x16, .f32⟩
  | .local _ .vmem, ⟨42, _⟩ => ⟨S5000x1, .i32⟩
  | .local _ .vmem, ⟨43, _⟩ => ⟨S5000x1, .i32⟩
  | .local _ .vmem, ⟨44, _⟩ => ⟨S5000x16, .f32⟩
  | .local _ .vmem, ⟨45, _⟩ => ⟨S5000x16, .f32⟩
  | .local _ .vmem, ⟨46, _⟩ => ⟨S512x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_13 : Ref sig .tc := ⟨.hbm, 85, rfl⟩
abbrev main_v61 : Ref sig .tc := ⟨.hbm, 86, rfl⟩
abbrev main_v62 : Ref sig .tc := ⟨.hbm, 87, rfl⟩
abbrev main_c_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_18 : Ref sig .tc := ⟨.hbm, 113, rfl⟩
abbrev main_v84 : Ref sig .tc := ⟨.hbm, 114, rfl⟩
abbrev main_v85 : Ref sig .tc := ⟨.hbm, 115, rfl⟩
abbrev main_c_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_20 : Ref sig .tc := ⟨.hbm, 123, rfl⟩
abbrev main_v92 : Ref sig .tc := ⟨.hbm, 124, rfl⟩
abbrev main_v93 : Ref sig .tc := ⟨.hbm, 125, rfl⟩
abbrev main_c_21 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_22 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_23 : Ref sig .tc := ⟨.hbm, 144, rfl⟩
abbrev main_v110 : Ref sig .tc := ⟨.hbm, 145, rfl⟩
abbrev main_cst_24 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_25 : Ref sig .tc := ⟨.hbm, 150, rfl⟩
abbrev main_call0_v0 : Ref sig .tc := ⟨.hbm, 151, rfl⟩
abbrev main_call0_v1 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x16 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1200000x1_S1200000x16_0_1 : S1200000x1.BroadcastsInDim S1200000x16 (![0, 1] : Fin 2 → Fin S1200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S512x16_S512x16_0_0 : ∀ a, (![0, 0] : Fin 2 → Nat) a + S512x16.size a ≤ S512x16.size a
  h_S512x16 : 0 < S512x16.numel
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  shapeCasts_S512x16_S512x16 : S512x16.ShapeCasts S512x16
  slices_S512x16_S500x16_0_0 : S512x16.Slices ![0, 0] S500x16
  bcast_S_S500 : S_.BroadcastsInDim S500 (![] : Fin 0 → Fin S500.rank)
  bcast_S100000_S100000x1_0 : S100000.BroadcastsInDim S100000x1 (![0] : Fin 1 → Fin S100000x1.rank)
  bcast_S500_S500x1_0 : S500.BroadcastsInDim S500x1 (![0] : Fin 1 → Fin S500x1.rank)
  bcast_S500x1_S500x16_0_1 : S500x1.BroadcastsInDim S500x16 (![0, 1] : Fin 2 → Fin S500x16.rank)
  scatter_S100000_S1200000x1_S1200000_n_0_0_1_wf : ScatterDims.WF S100000 S1200000x1 S1200000 [] [0] [0] 1
  dot_S5000x128_S128x64_S5000x64_1_0_0_1_n_n_wf : DotDims.WF S5000x128 S128x64 S5000x64 [1] [0] [0] [1] [] []
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1200000x1_S1200000x16_1_0_n_n_0_1_116_wf : GatherDims.WF S100000x16 S1200000x1 S1200000x16 [1] [0] [] [0] [] 1 ![1, 16]
  scatter_S100000x16_S1200000x1_S1200000x16_1_0_0_1_wf : ScatterDims.WF S100000x16 S1200000x1 S1200000x16 [1] [0] [0] 1
  dot_S5000x512_S5000x16_S512x16_0_0_1_1_n_n_wf : DotDims.WF S5000x512 S5000x16 S512x16 [0] [0] [1] [1] [] []
  scatter_S500_S100000x1_S100000_n_0_0_1_wf : ScatterDims.WF S500 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S100000x16.size a
  hwx4_2 : ∀ i : grid4.Coords, EltTy.bits .f32 = 32 ∨ (Rect.block (s := S100000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x16.size a ≤ S100000x16.size a
  hwx5_4 : ∀ i : grid5.Coords, EltTy.bits .f32 = 32 ∨ (Rect.block (s := S100000x16) S5000x16.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S100000x1.size a
  hwx6_0 : ∀ i : grid6.Coords, EltTy.bits .i32 = 32 ∨ (Rect.block (s := S100000x1) S5000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x16.size a ≤ S100000x16.size a
  hwx6_1 : ∀ i : grid6.Coords, EltTy.bits .f32 = 32 ∨ (Rect.block (s := S100000x16) S5000x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x16.size a ≤ S512x16.size a
  hwx6_2 : ∀ i : grid6.Coords, EltTy.bits .f32 = 32 ∨ (Rect.block (s := S512x16) S512x16.size (cc6_transform_2 i) (hinb6_2 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1200000x1_S1200000x16_1_0_n_n_0_1_116 : GatherDims S100000x16 S1200000x1 S1200000x16 where
  offsetDims := [1]
  collapsedSliceDims := [0]
  operandBatchingDims := []
  startIndicesBatchingDims := []
  startIndexMap := [0]
  indexVectorDim := 1
  sliceSizes := ![1, 16]
  wf := gather_S100000x16_S1200000x1_S1200000x16_1_0_n_n_0_1_116_wf
def scatter_S100000x16_S1200000x1_S1200000x16_1_0_0_1 : ScatterDims S100000x16 S1200000x1 S1200000x16 where
  updateWindowDims := [1]
  insertedWindowDims := [0]
  scatterDimsToOperandDims := [0]
  indexVectorDim := 1
  wf := scatter_S100000x16_S1200000x1_S1200000x16_1_0_0_1_wf
def dot_S5000x512_S5000x16_S512x16_0_0_1_1_n_n : DotDims S5000x512 S5000x16 S512x16 where
  lhsContracting := [0]
  rhsContracting := [0]
  lhsNonContracting := [1]
  rhsNonContracting := [1]
  lhsBatch := []
  rhsBatch := []
  wf := dot_S5000x512_S5000x16_S512x16_0_0_1_1_n_n_wf
def scatter_S500_S100000x1_S100000_n_0_0_1 : ScatterDims S500 S100000x1 S100000 where
  updateWindowDims := []
  insertedWindowDims := [0]
  scatterDimsToOperandDims := [0]
  indexVectorDim := 1
  wf := scatter_S500_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v75) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v104) S5000x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v105) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S5000x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v107) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S5000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v108) S512x16.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x64 : Shape := ⟨2, ![100000, 64]⟩
abbrev S1200000x64 : Shape := ⟨2, ![1200000, 64]⟩
abbrev S100000x1 : Shape := ⟨2, ![100000, 1]⟩
abbrev S1x64 : Shape := ⟨2, ![1, 64]⟩
abbrev S100000x16 : Shape := ⟨2, ![100000, 16]⟩
abbrev S1200000x16 : Shape := ⟨2, ![1200000, 16]⟩
abbrev S1x16 : Shape := ⟨2, ![1, 16]⟩
abbrev S500x16 : Shape := ⟨2, ![500, 16]⟩
abbrev S500 : Shape := ⟨1, ![500]⟩
abbrev S500x1 : Shape := ⟨2, ![500, 1]⟩

abbrev nBuf : Space → Nat
  | .hbm => 180
  | .vmem => 0
  | .smem => 0
  | _ => 0

abbrev hbmTy0_0 (i : Nat) : BufTy := match i % 128 with
  | 0 => ⟨S100000x128, .f32⟩
  | 1 => ⟨S2x1200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x16, .f32⟩
  | 8 => ⟨S16, .f32⟩
  | 9 => ⟨S1x1200000, .i32⟩
  | 10 => ⟨S1200000, .i32⟩
  | 11 => ⟨S1x1200000, .i32⟩
  | 12 => ⟨S1200000, .i32⟩
  | 13 => ⟨S_, .f32⟩
  | 14 => ⟨S1200000, .f32⟩
  | 15 => ⟨S_, .f32⟩
  | 16 => ⟨S100000, .f32⟩
  | 17 => ⟨S1200000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x64, .f32⟩
  | 26 => ⟨S_, .i32⟩
  | 27 => ⟨S1200000, .i32⟩
  | 28 => ⟨S1200000, .i1⟩
  | 29 => ⟨S_, .i32⟩
  | 30 => ⟨S1200000, .i32⟩
  | 31 => ⟨S1200000, .i32⟩
  | 32 => ⟨S1200000, .i32⟩
  | 33 => ⟨S1200000x1, .i32⟩
  | 34 => ⟨S1200000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000x64, .f32⟩
  | 54 => ⟨S1200000x1, .f32⟩
  | 55 => ⟨S1200000x64, .f32⟩
  | 56 => ⟨S1200000x64, .f32⟩
  | 57 => ⟨S_, .f32⟩
  | 58 => ⟨S100000x64, .f32⟩
  | 59 => ⟨S1200000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1200000, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000, .f32⟩
  | 91 => ⟨S1200000, .f32⟩
  | 92 => ⟨S_, .i32⟩
  | 93 => ⟨S1200000, .i32⟩
  | 94 => ⟨S1200000, .i1⟩
  | 95 => ⟨S_, .i32⟩
  | 96 => ⟨S1200000, .i32⟩
  | 97 => ⟨S1200000, .i32⟩
  | 98 => ⟨S1200000, .i32⟩
  | 99 => ⟨S1200000x1, .i32⟩
  | 100 => ⟨S1200000x64, .f32⟩
  | 101 => ⟨S1200000x1, .f32⟩
  | 102 => ⟨S1200000x64, .f32⟩
  | 103 => ⟨S1200000x64, .f32⟩
  | 104 => ⟨S_, .f32⟩
  | 105 => ⟨S100000x64, .f32⟩
  | 106 => ⟨S1200000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x16, .f32⟩
  | 120 => ⟨S_, .i32⟩
  | 121 => ⟨S1200000, .i32⟩
  | 122 => ⟨S1200000, .i1⟩
  | 123 => ⟨S_, .i32⟩
  | 124 => ⟨S1200000, .i32⟩
  | 125 => ⟨S1200000, .i32⟩
  | 126 => ⟨S1200000, .i32⟩
  | 127 => ⟨S1200000x1, .i32⟩
  | _ => ⟨S100000x128, .f32⟩

abbrev hbmTy0_1 (i : Nat) : BufTy := match i % 128 with
  | 0 => ⟨S1200000, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000, .f32⟩
  | 10 => ⟨S1200000, .f32⟩
  | 11 => ⟨S_, .i32⟩
  | 12 => ⟨S1200000, .i32⟩
  | 13 => ⟨S1200000, .i1⟩
  | 14 => ⟨S_, .i32⟩
  | 15 => ⟨S1200000, .i32⟩
  | 16 => ⟨S1200000, .i32⟩
  | 17 => ⟨S1200000, .i32⟩
  | 18 => ⟨S1200000x1, .i32⟩
  | 19 => ⟨S1200000x16, .f32⟩
  | 20 => ⟨S1200000x1, .f32⟩
  | 21 => ⟨S1200000x16, .f32⟩
  | 22 => ⟨S1200000x16, .f32⟩
  | 23 => ⟨S_, .f32⟩
  | 24 => ⟨S100000x16, .f32⟩
  | 25 => ⟨S1200000x1, .i32⟩
  | 26 => ⟨S100000x16, .f32⟩
  | 27 => ⟨S100000, .f32⟩
  | 28 => ⟨S100000x1, .f32⟩
  | 29 => ⟨S100000x16, .f32⟩
  | 30 => ⟨S100000x16, .f32⟩
  | 31 => ⟨S100000x16, .f32⟩
  | 32 => ⟨S1x16, .f32⟩
  | 33 => ⟨S100000x16, .f32⟩
  | 34 => ⟨S100000x16, .f32⟩
  | 35 => ⟨S_, .f32⟩
  | 36 => ⟨S500x16, .f32⟩
  | 37 => ⟨S100000x1, .i32⟩
  | 38 => ⟨S500x16, .f32⟩
  | 39 => ⟨S_, .f32⟩
  | 40 => ⟨S100000, .f32⟩
  | 41 => ⟨S_, .f32⟩
  | 42 => ⟨S500, .f32⟩
  | 43 => ⟨S100000x1, .i32⟩
  | 44 => ⟨S500, .f32⟩
  | 45 => ⟨S_, .f32⟩
  | 46 => ⟨S_, .f32⟩
  | 47 => ⟨S500, .f32⟩
  | 48 => ⟨S500, .f32⟩
  | 49 => ⟨S500x1, .f32⟩
  | 50 => ⟨S500x16, .f32⟩
  | 51 => ⟨S500x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call1_cst : Ref sig .tc := ⟨.hbm, 116, rfl⟩
abbrev main_call1_v0 : Ref sig .tc := ⟨.hbm, 117, rfl⟩
abbrev main_v87 : Ref sig .tc := ⟨.hbm, 118, rfl⟩
abbrev main_v88 : Ref sig .tc := ⟨.hbm, 119, rfl⟩
abbrev main_c_16 : Ref sig .tc := ⟨.hbm, 120, rfl⟩
abbrev main_v89 : Ref sig .tc := ⟨.hbm, 121, rfl⟩
abbrev main_v90 : Ref sig .tc := ⟨.hbm, 122, rfl⟩
abbrev main_c_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_18 : Ref sig .tc := ⟨.hbm, 129, rfl⟩
abbrev main_v96 : Ref sig .tc := ⟨.hbm, 130, rfl⟩
abbrev main_v97 : Ref sig .tc := ⟨.hbm, 131, rfl⟩
abbrev main_c_19 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_20 : Ref sig .tc := ⟨.hbm, 139, rfl⟩
abbrev main_v104 : Ref sig .tc := ⟨.hbm, 140, rfl⟩
abbrev main_v105 : Ref sig .tc := ⟨.hbm, 141, rfl⟩
abbrev main_c_21 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_22 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_23 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_24 : Ref sig .tc := ⟨.hbm, 167, rfl⟩
abbrev main_v128 : Ref sig .tc := ⟨.hbm, 168, rfl⟩
abbrev main_cst_25 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_26 : Ref sig .tc := ⟨.hbm, 173, rfl⟩
abbrev main_call2_v0 : Ref sig .tc := ⟨.hbm, 174, rfl⟩
abbrev main_call2_v1 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1200000x1_S1200000x16_0_1 : S1200000x1.BroadcastsInDim S1200000x16 (![0, 1] : Fin 2 → Fin S1200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S500x16 : S_.BroadcastsInDim S500x16 (![] : Fin 0 → Fin S500x16.rank)
  bcast_S_S500 : S_.BroadcastsInDim S500 (![] : Fin 0 → Fin S500.rank)
  bcast_S500_S500x1_0 : S500.BroadcastsInDim S500x1 (![0] : Fin 1 → Fin S500x1.rank)
  bcast_S500x1_S500x16_0_1 : S500x1.BroadcastsInDim S500x16 (![0, 1] : Fin 2 → Fin S500x16.rank)
  scatter_S100000_S1200000x1_S1200000_n_0_0_1_wf : ScatterDims.WF S100000 S1200000x1 S1200000 [] [0] [0] 1
  dot_S100000x128_S128x64_S100000x64_1_0_0_1_n_n_wf : DotDims.WF S100000x128 S128x64 S100000x64 [1] [0] [0] [1] [] []
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  gather_S100000x16_S1200000x1_S1200000x16_1_0_n_n_0_1_116_wf : GatherDims.WF S100000x16 S1200000x1 S1200000x16 [1] [0] [] [0] [] 1 ![1, 16]
  scatter_S100000x16_S1200000x1_S1200000x16_1_0_0_1_wf : ScatterDims.WF S100000x16 S1200000x1 S1200000x16 [1] [0] [0] 1
  scatter_S500x16_S100000x1_S100000x16_1_0_0_1_wf : ScatterDims.WF S500x16 S100000x1 S100000x16 [1] [0] [0] 1
  scatter_S500_S100000x1_S100000_n_0_0_1_wf : ScatterDims.WF S500 S100000x1 S100000 [] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1200000x1_S1200000x16_1_0_n_n_0_1_116 : GatherDims S100000x16 S1200000x1 S1200000x16 where
  offsetDims := [1]
  collapsedSliceDims := [0]
  operandBatchingDims := []
  startIndicesBatchingDims := []
  startIndexMap := [0]
  indexVectorDim := 1
  sliceSizes := ![1, 16]
  wf := gather_S100000x16_S1200000x1_S1200000x16_1_0_n_n_0_1_116_wf
def scatter_S100000x16_S1200000x1_S1200000x16_1_0_0_1 : ScatterDims S100000x16 S1200000x1 S1200000x16 where
  updateWindowDims := [1]
  insertedWindowDims := [0]
  scatterDimsToOperandDims := [0]
  indexVectorDim := 1
  wf := scatter_S100000x16_S1200000x1_S1200000x16_1_0_0_1_wf
def scatter_S500x16_S100000x1_S100000x16_1_0_0_1 : ScatterDims S500x16 S100000x1 S100000x16 where
  updateWindowDims := [1]
  insertedWindowDims := [0]
  scatterDimsToOperandDims := [0]
  indexVectorDim := 1
  wf := scatter_S500x16_S100000x1_S100000x16_1_0_0_1_wf
def scatter_S500_S100000x1_S100000_n_0_0_1 : ScatterDims S500 S100000x1 S100000 where
  updateWindowDims := []
  insertedWindowDims := [0]
  scatterDimsToOperandDims := [0]
  indexVectorDim := 1
  wf := scatter_S500_S100000x1_S100000_n_0_0_1_wf

class Facts : Prop extends Facts₀ where

variable [Facts]
-- ==== Proof.Spec.lean ====
/-
  The values of a three-layer graph convolution with mean pooling, as functions of whole arrays, index by index,
  on the extended reals.

  A layer takes a node table, multiplies it by a weight matrix (`mm`), aggregates the products along the edges
  (the host's gather / scale / scatter-add, which both programs share), and updates every node (`combRelu`,
  `combLin`): the aggregate plus the node's own product row scaled by its squared inverse-root degree, plus
  the bias row; the first two layers clamp the result at zero from below.  The pooling sums the rows of the last
  node table by graph id (`poolSum`): row `g` of the result is the sum of the node rows whose graph-id word
  is the 32-bit word of `g`.
-/
import Idealize.ShloMosaic.PureOps.Ideal
import Idealize.ShloMosaic.Lib.ValueIdx

noncomputable section

open scoped BigOperators

namespace GcnSpec

open Idealize.ShloMosaic Idealize.ShloMosaic.ValueIdx

/-- The product of an `[R, K]` table with a `[K, C]` table: entry `(p, q)` is `∑ k, x (p, k) * w (k, q)`. -/
def mm {R K C : Nat} (x : (⟨2, ![R, K]⟩ : Shape).Idx → EReal) (w : (⟨2, ![K, C]⟩ : Shape).Idx → EReal) :
    (⟨2, ![R, C]⟩ : Shape).Idx → EReal :=
  fun i => ∑ k : Fin K, x (ix2 (i 0) k) * w (ix2 k (i 1))

/-- A node update without the clamp: `agg (p, q) + h (p, q) * d2 (p, 0) + b (0, q)`. -/
def combLin {N C : Nat} (h : (⟨2, ![N, C]⟩ : Shape).Idx → EReal) (d2 : (⟨2, ![N, 1]⟩ : Shape).Idx → EReal)
    (agg : (⟨2, ![N, C]⟩ : Shape).Idx → EReal) (b : (⟨2, ![1, C]⟩ : Shape).Idx → EReal) :
    (⟨2, ![N, C]⟩ : Shape).Idx → EReal :=
  fun i => agg i + h i * d2 (ix2 (i 0) (0 : Fin 1)) + b (ix2 (0 : Fin 1) (i 1))

/-- A node update clamped at the float zero from below. -/
def combRelu {N C : Nat} (h : (⟨2, ![N, C]⟩ : Shape).Idx → EReal) (d2 : (⟨2, ![N, 1]⟩ : Shape).Idx → EReal)
    (agg : (⟨2, ![N, C]⟩ : Shape).Idx → EReal) (b : (⟨2, ![1, C]⟩ : Shape).Idx → EReal) :
    (⟨2, ![N, C]⟩ : Shape).Idx → EReal :=
  fun i => max (combLin h d2 agg b i) (Ideal.ofBits .f32 0x00000000#32)

/-- Row `g` of the pooled table: the sum of the node rows whose graph-id word is the 32-bit word of `g`. -/
def poolSum {N G C : Nat} (ids : (⟨2, ![N, 1]⟩ : Shape).Idx → BitVec 32) (h : (⟨2, ![N, C]⟩ : Shape).Idx → EReal) :
    (⟨2, ![G, C]⟩ : Shape).Idx → EReal :=
  fun i => ∑ e ∈ Finset.univ.filter (fun e : Fin N => ids (ix2 e (0 : Fin 1)) = BitVec.ofNat 32 (i 0).val), h (ix2 e (i 1))

/-- The squared inverse-root degrees laid out as a column: entry `(p, 0)` is `dis p * dis p`. -/
def d2col {N : Nat} (dis : (⟨1, ![N]⟩ : Shape).Idx → EReal) : (⟨2, ![N, 1]⟩ : Shape).Idx → EReal :=
  fun i => dis (ix1 (i 0)) * dis (ix1 (i 0))

/-- A bias vector laid out as a row: entry `(0, q)` is `b q`. -/
def brow {C : Nat} (b : (⟨1, ![C]⟩ : Shape).Idx → EReal) : (⟨2, ![1, C]⟩ : Shape).Idx → EReal :=
  fun i => b (ix1 (i 1))

/-- The graph ids laid out as a column: entry `(e, 0)` is the id word of node `e`. -/
def idcol {N : Nat} (ids : (⟨1, ![N]⟩ : Shape).Idx → BitVec 32) : (⟨2, ![N, 1]⟩ : Shape).Idx → BitVec 32 :=
  fun i => ids (ix1 (i 0))

end GcnSpec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.RegMM.lean ====
import proofs.«417690_j12515534701155_2_alg».proof.Proof.Gen.KernelIdeal.Frame
import proofs.«417690_j12515534701155_2_alg».proof.Proof.Spec
import proofs.«417690_j12515534701155_2_alg».proof.Proof.LibPlainDot
import Idealize.ShloMosaic.Lib.Pipeline.Value
import Idealize.ShloMosaic.PureOps.Ideal.Laws

set_option maxRecDepth 16384

noncomputable section

open scoped BigOperators

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat Cfg Window)

/- The buffers' contents when a region is entered: every statement below holds for any such contents. -/
variable (V : (c : Dev nD) → (b : Ref sig .tc) → Buf (Elt Ideal) ((c : Thread nD τ).loc b))

/-- The block offsets of every access of the bodies are zero on both axes. -/
theorem zeroOffsets : (![0, 0] : Fin 2 → Nat) = fun _ => 0 := funext fun a => by fin_cases a <;> rfl

/-! ## The first feature transform: [100000,128] x [128,64] -/

/-- The block indices over the grid: at point t the node rows' block and the product's block are block row t
    (all columns), and the weights' block is the whole weight array. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at entry (p, q) of its block: rounding to the narrower format is the identity on the extended
    reals, the accumulator starts at zero, and the contraction runs over the 128 shared positions, so the entry is
    the sum over k of x0 (p, k) * x1 (k, q). -/
theorem product0_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  refine (Ideal.matmul_constant_zero_apply dot_S5000x128_S128x64_S5000x64_1_0_0_1_n_n none
    (truncf .bf16 x0 bitsLt_bf16_f32) (truncf .bf16 x1 bitsLt_bf16_f32) (ix2 p q)).trans ?_
  exact PlainDot.sum_eq dot_S5000x128_S128x64_S5000x64_1_0_0_1_n_n rfl rfl rfl rfl rfl rfl x0 x1 p q

/-- Entry (p, k) of the node rows' block at point t is entry (5000 t + p, k) of the node table. -/
theorem rows0_read (c : Dev nD) (t : Fin cfg0.N) (p : Fin 5000) (k : Fin 128) (r : Fin 100000)
    (hr : r.val = t.val * 5000 + p.val) :
    iblk0 V c 0 t (ix2 p k) = V c main_arg0 (ix2 r k) := by
  obtain ⟨e00, e01, -, -, -, -⟩ := blockIndex0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights' block at every point is the weight array itself. -/
theorem weights0_read (c : Dev nD) (t : Fin cfg0.N) (k : Fin 128) (q q' : Fin 64) (hq : q'.val = q.val) :
    iblk0 V c 1 t (ix2 k q) = V c main_arg3 (ix2 k q') := by
  obtain ⟨-, -, e10, e11, -, -⟩ := blockIndex0 t
  show V c main_arg3 (((cfg0.win 1).blk t).view.emb (ix2 k q)) = V c main_arg3 (ix2 k q')
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 64 + 1 * q.val = q'.val; omega

/-- A block entry of the body's product against the whole arrays: if the row of the left block that entry j reads
    is the row of the left array that entry i reads, and likewise for the columns of the right operand, entry j of
    the body's product is entry i of the arrays' matrix product. -/
theorem blockProduct0 (A : S100000x128.Idx → EReal) (W : S128x64.Idx → EReal)
    (x0 : Vec Ideal S5000x128 .f32) (x1 : Vec Ideal S128x64 .f32) (j : S5000x64.Idx) (i : S100000x64.Idx)
    (h0 : ∀ k : Fin 128, x0 (ix2 (j 0) k) = A (ix2 (i 0) k))
    (h1 : ∀ k : Fin 128, x1 (ix2 k (j 1)) = W (ix2 k (i 1))) :
    k0_pay1 (F := Ideal) x0 x1 j = GcnSpec.mm A W i := by
  obtain ⟨p, q, rfl⟩ : ∃ (p : Fin 5000) (q : Fin 64), j = ix2 p q := ⟨j 0, j 1, eq_ix2 j⟩
  rw [product0_apply]
  show _ = ∑ k : Fin 128, A (ix2 (i 0) k) * W (ix2 k (i 1))
  exact Finset.sum_congr rfl fun k _ => congrArg₂ (· * ·) (h0 k) (h1 k)

set_option maxHeartbeats 400000 in
/-- What point t writes back is block row t of the matrix product of the node table and the weights. -/
theorem flushed0 (c : Dev nD) (t : Fin cfg0.N) :
    (dat0 (F := Ideal) V c).flushed 2 t
      = ((cfg0.win 2).blk t).view.read (Elt Ideal) (GcnSpec.mm (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x64) zeroOffsets]
  obtain ⟨-, -, -, -, e20, e21⟩ := blockIndex0 t
  funext j
  -- where entry j of the block sits in the array: row 5000 t + j 0, column j 1
  have hr : ((((cfg0.win 2).blk t).view.emb j) 0).val = t.val * 5000 + (j 0).val := by
    show win0_2.index t (0 : Fin 2) * 5000 + 1 * (j 0).val = _; omega
  have hq : ((((cfg0.win 2).blk t).view.emb j) 1).val = (j 1).val := by
    show win0_2.index t (1 : Fin 2) * 64 + 1 * (j 1).val = _; omega
  show k0_pay1 (F := Ideal) (iblk0 V c 0 t) (iblk0 V c 1 t) ((win0 2).xinj (grid0.coords t) j)
    = GcnSpec.mm (V c main_arg0) (V c main_arg3) (((cfg0.win 2).blk t).view.emb j)
  exact blockProduct0 (V c main_arg0) (V c main_arg3) (iblk0 V c 0 t) (iblk0 V c 1 t)
    ((win0 2).xinj (grid0.coords t) j) (((cfg0.win 2).blk t).view.emb j)
    (fun k => rows0_read V c t ((win0 2).xinj (grid0.coords t) j 0) k ((((cfg0.win 2).blk t).view.emb j) 0) hr)
    (fun k => weights0_read V c t k ((win0 2).xinj (grid0.coords t) j 1) ((((cfg0.win 2).blk t).view.emb j) 1) hq)

/-- An index of the product array is in point t's block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v14).slice (win0_2.rect t)).set ↔ _
  rw [View.set_slice_whole, Rect.mem_set_unit]
  exact Iff.rfl

/-- Every index of the product array is in some point's block: row r is in block row r / 5000. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, e20, e21⟩ := blockIndex0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the first feature transform the product array is the matrix product of the node table and the weights. -/
theorem final0 (c : Dev nD) :
    (dat0 (F := Ideal) V c).arrAt 2 cfg0.N = GcnSpec.mm (V c main_arg0) (V c main_arg3) :=
  (dat0 V c).arrAt_eq_of_cover 2 (GcnSpec.mm (V c main_arg0) (V c main_arg3)) (fun t _ => flushed0 V c t) covered0

/-! ## The second layer's transform: [100000,64] x [64,64] -/

/-- The block indices over the grid: at point t the node rows' block and the product's block are block row t
    (all columns), and the weights' block is the whole weight array. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at entry (p, q) of its block: the cast to the block's own shape and the rounding to the narrower format are the identity on
    the extended reals, the accumulator starts at zero, and the contraction runs over the 64 shared positions, so the entry is
    the sum over k of x0 (p, k) * x1 (k, q). -/
theorem product2_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  rw [shapeCast_self]
  refine (Ideal.matmul_constant_zero_apply dot_S5000x64_S64x64_S5000x64_1_0_0_1_n_n none
    (truncf .bf16 x0 bitsLt_bf16_f32) (truncf .bf16 x1 bitsLt_bf16_f32) (ix2 p q)).trans ?_
  exact PlainDot.sum_eq dot_S5000x64_S64x64_S5000x64_1_0_0_1_n_n rfl rfl rfl rfl rfl rfl x0 x1 p q

/-- Entry (p, k) of the node rows' block at point t is entry (5000 t + p, k) of the node table. -/
theorem rows2_read (c : Dev nD) (t : Fin cfg2.N) (p : Fin 5000) (k : Fin 64) (r : Fin 100000)
    (hr : r.val = t.val * 5000 + p.val) :
    iblk2 V c 0 t (ix2 p k) = V c main_v44 (ix2 r k) := by
  obtain ⟨e00, e01, -, -, -, -⟩ := blockIndex2 t
  show V c main_v44 (((cfg2.win 0).blk t).view.emb (ix2 p k)) = V c main_v44 (ix2 r k)
  refine congrArg (V c main_v44) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The weights' block at every point is the weight array itself. -/
theorem weights2_read (c : Dev nD) (t : Fin cfg2.N) (k : Fin 64) (q q' : Fin 64) (hq : q'.val = q.val) :
    iblk2 V c 1 t (ix2 k q) = V c main_arg5 (ix2 k q') := by
  obtain ⟨-, -, e10, e11, -, -⟩ := blockIndex2 t
  show V c main_arg5 (((cfg2.win 1).blk t).view.emb (ix2 k q)) = V c main_arg5 (ix2 k q')
  refine congrArg (V c main_arg5) (funext fun a => Fin.ext ?_)
  match a with
  | ⟨0, _⟩ => show win2_1.index t (0 : Fin 2) * 64 + 1 * k.val = k.val; omega
  | ⟨1, _⟩ => show win2_1.index t (1 : Fin 2) * 64 + 1 * q.val = q'.val; omega

/-- A block entry of the body's product against the whole arrays: if the row of the left block that entry j reads
    is the row of the left array that entry i reads, and likewise for the columns of the right operand, entry j of
    the body's product is entry i of the arrays' matrix product. -/
theorem blockProduct2 (A : S100000x64.Idx → EReal) (W : S64x64.Idx → EReal)
    (x0 : Vec Ideal S5000x64 .f32) (x1 : Vec Ideal S64x64 .f32) (j : S5000x64.Idx) (i : S100000x64.Idx)
    (h0 : ∀ k : Fin 64, x0 (ix2 (j 0) k) = A (ix2 (i 0) k))
    (h1 : ∀ k : Fin 64, x1 (ix2 k (j 1)) = W (ix2 k (i 1))) :
    k2_pay1 (F := Ideal) x0 x1 j = GcnSpec.mm A W i := by
  obtain ⟨p, q, rfl⟩ : ∃ (p : Fin 5000) (q : Fin 64), j = ix2 p q := ⟨j 0, j 1, eq_ix2 j⟩
  rw [product2_apply]
  show _ = ∑ k : Fin 64, A (ix2 (i 0) k) * W (ix2 k (i 1))
  exact Finset.sum_congr rfl fun k _ => congrArg₂ (· * ·) (h0 k) (h1 k)

set_option maxHeartbeats 400000 in
/-- What point t writes back is block row t of the matrix product of the node table and the weights. -/
theorem flushed2 (c : Dev nD) (t : Fin cfg2.N) :
    (dat2 (F := Ideal) V c).flushed 2 t
      = ((cfg2.win 2).blk t).view.read (Elt Ideal) (GcnSpec.mm (V c main_v44) (V c main_arg5)) := by
  show (cfg2.win 2).cut (grid2.coords t) ((dat2 V c).after 2 t) = _
  rw [after2_2]
  unfold out2_2
  rw [View.canon_unit_zero zeroOffsets]
  simp only [View.ld_unit_zero (S := S5000x64) zeroOffsets, View.ld_unit_zero (S := S64x64) zeroOffsets]
  obtain ⟨-, -, -, -, e20, e21⟩ := blockIndex2 t
  funext j
  -- where entry j of the block sits in the array: row 5000 t + j 0, column j 1
  have hr : ((((cfg2.win 2).blk t).view.emb j) 0).val = t.val * 5000 + (j 0).val := by
    show win2_2.index t (0 : Fin 2) * 5000 + 1 * (j 0).val = _; omega
  have hq : ((((cfg2.win 2).blk t).view.emb j) 1).val = (j 1).val := by
    show win2_2.index t (1 : Fin 2) * 64 + 1 * (j 1).val = _; omega
  show k2_pay1 (F := Ideal) (iblk2 V c 0 t) (iblk2 V c 1 t) ((win2 2).xinj (grid2.coords t) j)
    = GcnSpec.mm (V c main_v44) (V c main_arg5) (((cfg2.win 2).blk t).view.emb j)
  exact blockProduct2 (V c main_v44) (V c main_arg5) (iblk2 V c 0 t) (iblk2 V c 1 t)
    ((win2 2).xinj (grid2.coords t) j) (((cfg2.win 2).blk t).view.emb j)
    (fun k => rows2_read V c t ((win2 2).xinj (grid2.coords t) j 0) k ((((cfg2.win 2).blk t).view.emb j) 0) hr)
    (fun k => weights2_read V c t k ((win2 2).xinj (grid2.coords t) j 1) ((((cfg2.win 2).blk t).view.emb j) 1) hq)

/-- An index of the product array is in point t's block iff each coordinate is in the block's range on its axis. -/
theorem mem_block2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Every index of the product array is in some point's block: row r is in block row r / 5000. -/
theorem covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, e20, e21⟩ := blockIndex2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The same for the second layer's transform. -/
theorem final2 (c : Dev nD) :
    (dat2 (F := Ideal) V c).arrAt 2 cfg2.N = GcnSpec.mm (V c main_v44) (V c main_arg5) :=
  (dat2 V c).arrAt_eq_of_cover 2 (GcnSpec.mm (V c main_v44) (V c main_arg5)) (fun t _ => flushed2 V c t) covered2

/-! ## The third layer's transform: [100000,64] x [64,16] -/

/-- The block indices over the grid: at point t the node rows' block and the product's block are block row t
    (all columns), and the weights' block is the whole weight array. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's value at entry (p, q) of its block: the cast to the block's own shape and the rounding to the narrower format are the identity on
    the extended reals, the accumulator starts at zero, and the contraction runs over the 64 shared positions, so the entry is
    the sum over k of x0 (p, k) * x1 (k, q). -/
theorem product4_apply (x0 : Vec Ideal S5000x64 .f32) (x1 : Vec Ideal S64x16 .f32) (p : Fin 5000) (q : Fin 16) :
    k4_pay1 (F := Ideal) x0 x1 (ix2 p q) = ∑ k : Fin 64, x0 (ix2 p k) * x1 (ix2 k q) := by
  unfold k4_pay1
  rw [shapeCast_self]
  refine (Ideal.matmul_constant_zero_apply dot_S5000x64_S64x16_S5000x16_1_0_0_1_n_n none
    (truncf .bf16 x0 bitsLt_bf16_f32) (truncf .bf16 x1 bitsLt_bf16_f32) (ix2 p q)).trans ?_
  exact PlainDot.sum_eq dot_S5000x64_S64x16_S5000x16_1_0_0_1_n_n rfl rfl rfl rfl rfl rfl x0 x1 p q

/-- Entry (p, k) of the node rows' block at point t is entry (5000 t + p, k) of the node table. -/
theorem rows4_read (c : Dev nD) (t : Fin cfg4.N) (p : Fin 5000) (k : Fin 64) (r : Fin 100000)
    (hr : r.val = t.val * 5000 + p.val) :
    iblk4 V c 0 t (ix2 p k) = V c main_v75 (ix2 r k) := by
  obtain ⟨e00, e01, -, -, -, -⟩ := blockIndex4 t
  show V c main_v75 (((cfg4.win 0).blk t).view.emb (ix2 p k)) = V c main_v75 (ix2 r k)
  refine congrArg (V c main_v75) (funext fun a => Fin.ext ?_)
  match a with
  | ⟨0, _⟩ => show win4_0.index t (0 : Fin 2) * 5000 + 1 * p.val = r.val; omega
  | ⟨1, _⟩ => show win4_0.index t (1 : Fin 2) * 64 + 1 * k.val = k.val; omega

/-- The weights' block at every point is the weight array itself. -/
theorem weights4_read (c : Dev nD) (t : Fin cfg4.N) (k : Fin 64) (q q' : Fin 16) (hq : q'.val = q.val) :
    iblk4 V c 1 t (ix2 k q) = V c main_arg7 (ix2 k q') := by
  obtain ⟨-, -, e10, e11, -, -⟩ := blockIndex4 t
  show V c main_arg7 (((cfg4.win 1).blk t).view.emb (ix2 k q)) = V c main_arg7 (ix2 k q')
  refine congrArg (V c main_arg7) (funext fun a => Fin.ext ?_)
  match a with
  | ⟨0, _⟩ => show win4_1.index t (0 : Fin 2) * 64 + 1 * k.val = k.val; omega
  | ⟨1, _⟩ => show win4_1.index t (1 : Fin 2) * 16 + 1 * q.val = q'.val; omega

/-- A block entry of the body's product against the whole arrays: if the row of the left block that entry j reads
    is the row of the left array that entry i reads, and likewise for the columns of the right operand, entry j of
    the body's product is entry i of the arrays' matrix product. -/
theorem blockProduct4 (A : S100000x64.Idx → EReal) (W : S64x16.Idx → EReal)
    (x0 : Vec Ideal S5000x64 .f32) (x1 : Vec Ideal S64x16 .f32) (j : S5000x16.Idx) (i : S100000x16.Idx)
    (h0 : ∀ k : Fin 64, x0 (ix2 (j 0) k) = A (ix2 (i 0) k))
    (h1 : ∀ k : Fin 64, x1 (ix2 k (j 1)) = W (ix2 k (i 1))) :
    k4_pay1 (F := Ideal) x0 x1 j = GcnSpec.mm A W i := by
  obtain ⟨p, q, rfl⟩ : ∃ (p : Fin 5000) (q : Fin 16), j = ix2 p q := ⟨j 0, j 1, eq_ix2 j⟩
  rw [product4_apply]
  show _ = ∑ k : Fin 64, A (ix2 (i 0) k) * W (ix2 k (i 1))
  exact Finset.sum_congr rfl fun k _ => congrArg₂ (· * ·) (h0 k) (h1 k)

set_option maxHeartbeats 400000 in
/-- What point t writes back is block row t of the matrix product of the node table and the weights. -/
theorem flushed4 (c : Dev nD) (t : Fin cfg4.N) :
    (dat4 (F := Ideal) V c).flushed 2 t
      = ((cfg4.win 2).blk t).view.read (Elt Ideal) (GcnSpec.mm (V c main_v75) (V c main_arg7)) := by
  show (cfg4.win 2).cut (grid4.coords t) ((dat4 V c).after 2 t) = _
  rw [after4_2]
  unfold out4_2
  rw [View.canon_unit_zero zeroOffsets]
  simp only [View.ld_unit_zero (S := S5000x64) zeroOffsets, View.ld_unit_zero (S := S64x16) zeroOffsets]
  obtain ⟨-, -, -, -, e20, e21⟩ := blockIndex4 t
  funext j
  -- where entry j of the block sits in the array: row 5000 t + j 0, column j 1
  have hr : ((((cfg4.win 2).blk t).view.emb j) 0).val = t.val * 5000 + (j 0).val := by
    show win4_2.index t (0 : Fin 2) * 5000 + 1 * (j 0).val = _; omega
  have hq : ((((cfg4.win 2).blk t).view.emb j) 1).val = (j 1).val := by
    show win4_2.index t (1 : Fin 2) * 16 + 1 * (j 1).val = _; omega
  show k4_pay1 (F := Ideal) (iblk4 V c 0 t) (iblk4 V c 1 t) ((win4 2).xinj (grid4.coords t) j)
    = GcnSpec.mm (V c main_v75) (V c main_arg7) (((cfg4.win 2).blk t).view.emb j)
  exact blockProduct4 (V c main_v75) (V c main_arg7) (iblk4 V c 0 t) (iblk4 V c 1 t)
    ((win4 2).xinj (grid4.coords t) j) (((cfg4.win 2).blk t).view.emb j)
    (fun k => rows4_read V c t ((win4 2).xinj (grid4.coords t) j 0) k ((((cfg4.win 2).blk t).view.emb j) 0) hr)
    (fun k => weights4_read V c t k ((win4 2).xinj (grid4.coords t) j 1) ((((cfg4.win 2).blk t).view.emb j) 1) hq)

/-- An index of the product array is in point t's block iff each coordinate is in the block's range on its axis. -/
theorem mem_block4 (t : Fin cfg4.N) (i : S100000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v76).slice (win4_2.rect t)).set ↔ _
  rw [View.set_slice_whole, Rect.mem_set_unit]
  exact Iff.rfl

/-- Every index of the product array is in some point's block: row r is in block row r / 5000. -/
theorem covered4 (i : S100000x16.Idx) :
    ∃ t : Fin cfg4.N, (cfg4.win 2).flush t = true ∧ i ∈ ((cfg4.win 2).blk t).view.set := by
  have hi0 : (i 0).val < 100000 := (i 0).isLt
  have hi1 : (i 1).val < 16 := (i 1).isLt
  obtain ⟨t, ht⟩ : ∃ t : Fin cfg4.N, t.val = (i 0).val / 5000 :=
    ⟨⟨(i 0).val / 5000, lt_of_lt_of_eq (by omega : (i 0).val / 5000 < 20) N_4.symm⟩, rfl⟩
  obtain ⟨-, -, -, -, e20, e21⟩ := blockIndex4 t
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 16 ≤ (i 1).val ∧ (i 1).val < win4_2.index t (1 : Fin 2) * 16 + 16; omega

/-- The same for the third layer's transform. -/
theorem final4 (c : Dev nD) :
    (dat4 (F := Ideal) V c).arrAt 2 cfg4.N = GcnSpec.mm (V c main_v75) (V c main_arg7) :=
  (dat4 V c).arrAt_eq_of_cover 2 (GcnSpec.mm (V c main_v75) (V c main_arg7)) (fun t _ => flushed4 V c t) covered4

end Cert.KernelIdeal.Reg

end
-- ==== Proof.RegComb.lean ====
import proofs.«417690_j12515534701155_2_alg».proof.Proof.Gen.KernelIdeal.Frame
import proofs.«417690_j12515534701155_2_alg».proof.Proof.Spec
import Idealize.ShloMosaic.Lib.Pipeline.Value
import Idealize.ShloMosaic.Lib.ValueLayout

set_option maxRecDepth 16384

noncomputable section

open scoped BigOperators

namespace Cert.KernelIdeal.RegComb

open Cert.KernelIdeal Cert.KernelIdeal.Gen
open Idealize.ShloMosaic Idealize.ShloMosaic.TcCoe Idealize.SL.Sem Idealize.ShloMosaic.ValueIdx
open Idealize.ShloMosaic.Pipeline (Dat Cfg Window)

/- The buffers' contents when a region is entered: every statement below holds for any such contents. -/
variable (V : (c : Dev nD) → (b : Ref sig .tc) → Buf (Elt Ideal) ((c : Thread nD τ).loc b))

/-! ## Shared: a column broadcast, the zero offsets, and the update read at an index -/

/-- A column `[a, 1]` broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The offsets `![0, 0]` are the zero offsets. -/
theorem zeroOffsets : (![0, 0] : Fin 2 → Nat) = fun _ => 0 := funext fun a => by fin_cases a <;> rfl

/-- The clamped update read at an index, from its four operands each read where that index says. -/
theorem combRelu_at (h agg : S100000x64.Idx → EReal) (d2 : S100000x1.Idx → EReal) (b : S1x64.Idx → EReal)
    (i i0 i2 : S100000x64.Idx) (i1 : S100000x1.Idx) (i3 : S1x64.Idx)
    (e0 : i0 = i) (e2 : i2 = i) (e1 : i1 = ix2 (i 0) (0 : Fin 1)) (e3 : i3 = ix2 (0 : Fin 1) (i 1)) :
    max (agg i2 + h i0 * d2 i1 + b i3) (Ideal.ofBits .f32 0x00000000#32) = GcnSpec.combRelu h d2 agg b i := by
  subst e0 e2 e1 e3; rfl

/-- The update without the clamp read at an index, from its four operands each read where that index says. -/
theorem combLin_at (h agg : S100000x16.Idx → EReal) (d2 : S100000x1.Idx → EReal) (b : S1x16.Idx → EReal)
    (i i0 i2 : S100000x16.Idx) (i1 : S100000x1.Idx) (i3 : S1x16.Idx)
    (e0 : i0 = i) (e2 : i2 = i) (e1 : i1 = ix2 (i 0) (0 : Fin 1)) (e3 : i3 = ix2 (0 : Fin 1) (i 1)) :
    agg i2 + h i0 * d2 i1 + b i3 = GcnSpec.combLin h d2 agg b i := by
  subst e0 e2 e1 e3; rfl

/-! ## The first layer's node update -/

/-- The body's result at `(p, q)`: the aggregate plus the node's row scaled by its column entry, plus the bias
    row, clamped at the float zero from below. -/
theorem pay1_apply (agg h : FVec Ideal S5000x64 .f32) (d2 : FVec Ideal S5000x1 .f32) (b : FVec Ideal S1x64 .f32)
    (p : Fin 5000) (q : Fin 64) :
    k1_pay1 (F := Ideal) agg h d2 b (ix2 p q)
      = max (agg (ix2 p q) + h (ix2 p q) * d2 (ix2 p (0 : Fin 1)) + b (ix2 (0 : Fin 1) q))
          (Ideal.ofBits .f32 0x00000000#32) := by
  unfold k1_pay1
  simp only [shapeCast_self]
  show max (agg (ix2 p q) + h (ix2 p q) * broadcastTo S5000x64 d2 broadcasts_S5000x1_S5000x64 (ix2 p q)
      + broadcastTo S5000x64 b broadcasts_S1x64_S5000x64 (ix2 p q)) (Ideal.ofBits .f32 0x00000000#32) = _
  rw [broadcastTo_a1_ab_apply d2 _ p q, broadcastTo_1b_ab_apply b _ p q]

/-- The printed index maps, decided once over the grid: point `t` reads and writes row block `t`, and the bias
    row's one block at every point. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point `t`'s block of the node table sits where its block of the output does. -/
theorem emb1_0 (t : Fin cfg1.N) (p : Fin 5000) (q : Fin 64) :
    ((cfg1.win 0).blk t).view.emb (ix2 p q) = ((cfg1.win 4).blk t).view.emb (ix2 p q) := by
  obtain ⟨a0, a1, b0, b1, c0, c1, d0, d1, o0, o1⟩ := index_facts1 t
  funext a; apply Fin.ext
  match a with
  | ⟨0, _⟩ => show win1_0.index t (0 : Fin 2) * 5000 + 1 * p.val = win1_4.index t (0 : Fin 2) * 5000 + 1 * p.val; omega
  | ⟨1, _⟩ => show win1_0.index t (1 : Fin 2) * 64 + 1 * q.val = win1_4.index t (1 : Fin 2) * 64 + 1 * q.val; omega

/-- So does its block of the aggregate. -/
theorem emb1_2 (t : Fin cfg1.N) (p : Fin 5000) (q : Fin 64) :
    ((cfg1.win 2).blk t).view.emb (ix2 p q) = ((cfg1.win 4).blk t).view.emb (ix2 p q) := by
  obtain ⟨a0, a1, b0, b1, c0, c1, d0, d1, o0, o1⟩ := index_facts1 t
  funext a; apply Fin.ext
  match a with
  | ⟨0, _⟩ => show win1_2.index t (0 : Fin 2) * 5000 + 1 * p.val = win1_4.index t (0 : Fin 2) * 5000 + 1 * p.val; omega
  | ⟨1, _⟩ => show win1_2.index t (1 : Fin 2) * 64 + 1 * q.val = win1_4.index t (1 : Fin 2) * 64 + 1 * q.val; omega

/-- Its block of the degree column sits at the output block's rows, in the one column. -/
theorem emb1_1 (t : Fin cfg1.N) (p : Fin 5000) (q : Fin 64) :
    ((cfg1.win 1).blk t).view.emb (ix2 p (0 : Fin 1))
      = ix2 ((((cfg1.win 4).blk t).view.emb (ix2 p q)) 0) (0 : Fin 1) := by
  obtain ⟨a0, a1, b0, b1, c0, c1, d0, d1, o0, o1⟩ := index_facts1 t
  funext a; apply Fin.ext
  match a with
  | ⟨0, _⟩ => show win1_1.index t (0 : Fin 2) * 5000 + 1 * p.val = win1_4.index t (0 : Fin 2) * 5000 + 1 * p.val; omega
  | ⟨1, _⟩ => show win1_1.index t (1 : Fin 2) * 1 + 1 * 0 = 0; omega

/-- The bias row's one block sits at the one row, in the output block's columns. -/
theorem emb1_3 (t : Fin cfg1.N) (p : Fin 5000) (q : Fin 64) :
    ((cfg1.win 3).blk t).view.emb (ix2 (0 : Fin 1) q)
      = ix2 (0 : Fin 1) ((((cfg1.win 4).blk t).view.emb (ix2 p q)) 1) := by
  obtain ⟨a0, a1, b0, b1, c0, c1, d0, d1, o0, o1⟩ := index_facts1 t
  funext a; apply Fin.ext
  match a with
  | ⟨0, _⟩ => show win1_3.index t (0 : Fin 2) * 1 + 1 * 0 = 0; omega
  | ⟨1, _⟩ => show win1_3.index t (1 : Fin 2) * 64 + 1 * q.val = win1_4.index t (1 : Fin 2) * 64 + 1 * q.val; omega

/-- What point `t` writes back is block `t` of the clamped update of the four arrays. -/
theorem flushed1_eq (c : Dev nD) (t : Fin cfg1.N) :
    (dat1 (F := Ideal) V c).flushed 4 t
      = ((cfg1.win 4).blk t).view.read (Elt Ideal)
          (GcnSpec.combRelu (V c main_v14) (V c main_v13) (V c main_v42) (V c main_v43)) := by
  show (cfg1.win 4).cut (grid1.coords t) ((dat1 V c).after 4 t) = _
  rw [after1_4]
  unfold out1_4
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k1_pay1 (F := Ideal) (iblk1 V c 2 t) (iblk1 V c 0 t) (iblk1 V c 1 t) (iblk1 V c 3 t) (ix2 p q)
      = GcnSpec.combRelu (V c main_v14) (V c main_v13) (V c main_v42) (V c main_v43)
          (((cfg1.win 4).blk t).view.emb (ix2 p q))
  refine (pay1_apply _ _ _ _ p q).trans ?_
  exact combRelu_at (V c main_v14) (V c main_v42) (V c main_v13) (V c main_v43) _ _ _ _ _
    (emb1_0 t p q) (emb1_2 t p q) (emb1_1 t p q) (emb1_3 t p q)

/-- An index of the array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v44).slice (win1_4.rect t)).set ↔ _
  rw [View.set_slice_whole, Rect.mem_set_unit]
  exact Iff.rfl

/-- Every index of the array is in some point's block: row `r` is in the block of point `r / 5000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨a0, a1, b0, b1, c0, c1, d0, d1, o0, o1⟩ := index_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- After the first layer's node update the output array is the clamped update of its four input arrays. -/
theorem final1 (c : Dev nD) :
    (dat1 (F := Ideal) V c).arrAt 4 cfg1.N
      = GcnSpec.combRelu (V c main_v14) (V c main_v13) (V c main_v42) (V c main_v43) :=
  (dat1 (F := Ideal) V c).arrAt_eq_of_cover 4 _ (fun t _ => flushed1_eq V c t) cover1

/-! ## The second layer's node update -/

/-- The body's result at `(p, q)`: the aggregate plus the node's row scaled by its column entry, plus the bias
    row, clamped at the float zero from below. -/
theorem pay3_apply (agg h : FVec Ideal S5000x64 .f32) (d2 : FVec Ideal S5000x1 .f32) (b : FVec Ideal S1x64 .f32)
    (p : Fin 5000) (q : Fin 64) :
    k3_pay1 (F := Ideal) agg h d2 b (ix2 p q)
      = max (agg (ix2 p q) + h (ix2 p q) * d2 (ix2 p (0 : Fin 1)) + b (ix2 (0 : Fin 1) q))
          (Ideal.ofBits .f32 0x00000000#32) := by
  unfold k3_pay1
  simp only [shapeCast_self]
  show max (agg (ix2 p q) + h (ix2 p q) * broadcastTo S5000x64 d2 broadcasts_S5000x1_S5000x64 (ix2 p q)
      + broadcastTo S5000x64 b broadcasts_S1x64_S5000x64 (ix2 p q)) (Ideal.ofBits .f32 0x00000000#32) = _
  rw [broadcastTo_a1_ab_apply d2 _ p q, broadcastTo_1b_ab_apply b _ p q]

/-- The printed index maps, decided once over the grid: point `t` reads and writes row block `t`, and the bias
    row's one block at every point. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Point `t`'s block of the node table sits where its block of the output does. -/
theorem emb3_0 (t : Fin cfg3.N) (p : Fin 5000) (q : Fin 64) :
    ((cfg3.win 0).blk t).view.emb (ix2 p q) = ((cfg3.win 4).blk t).view.emb (ix2 p q) := by
  obtain ⟨a0, a1, b0, b1, c0, c1, d0, d1, o0, o1⟩ := index_facts3 t
  funext a; apply Fin.ext
  match a with
  | ⟨0, _⟩ => show win3_0.index t (0 : Fin 2) * 5000 + 1 * p.val = win3_4.index t (0 : Fin 2) * 5000 + 1 * p.val; omega
  | ⟨1, _⟩ => show win3_0.index t (1 : Fin 2) * 64 + 1 * q.val = win3_4.index t (1 : Fin 2) * 64 + 1 * q.val; omega

/-- So does its block of the aggregate. -/
theorem emb3_2 (t : Fin cfg3.N) (p : Fin 5000) (q : Fin 64) :
    ((cfg3.win 2).blk t).view.emb (ix2 p q) = ((cfg3.win 4).blk t).view.emb (ix2 p q) := by
  obtain ⟨a0, a1, b0, b1, c0, c1, d0, d1, o0, o1⟩ := index_facts3 t
  funext a; apply Fin.ext
  match a with
  | ⟨0, _⟩ => show win3_2.index t (0 : Fin 2) * 5000 + 1 * p.val = win3_4.index t (0 : Fin 2) * 5000 + 1 * p.val; omega
  | ⟨1, _⟩ => show win3_2.index t (1 : Fin 2) * 64 + 1 * q.val = win3_4.index t (1 : Fin 2) * 64 + 1 * q.val; omega

/-- Its block of the degree column sits at the output block's rows, in the one column. -/
theorem emb3_1 (t : Fin cfg3.N) (p : Fin 5000) (q : Fin 64) :
    ((cfg3.win 1).blk t).view.emb (ix2 p (0 : Fin 1))
      = ix2 ((((cfg3.win 4).blk t).view.emb (ix2 p q)) 0) (0 : Fin 1) := by
  obtain ⟨a0, a1, b0, b1, c0, c1, d0, d1, o0, o1⟩ := index_facts3 t
  funext a; apply Fin.ext
  match a with
  | ⟨0, _⟩ => show win3_1.index t (0 : Fin 2) * 5000 + 1 * p.val = win3_4.index t (0 : Fin 2) * 5000 + 1 * p.val; omega
  | ⟨1, _⟩ => show win3_1.index t (1 : Fin 2) * 1 + 1 * 0 = 0; omega

/-- The bias row's one block sits at the one row, in the output block's columns. -/
theorem emb3_3 (t : Fin cfg3.N) (p : Fin 5000) (q : Fin 64) :
    ((cfg3.win 3).blk t).view.emb (ix2 (0 : Fin 1) q)
      = ix2 (0 : Fin 1) ((((cfg3.win 4).blk t).view.emb (ix2 p q)) 1) := by
  obtain ⟨a0, a1, b0, b1, c0, c1, d0, d1, o0, o1⟩ := index_facts3 t
  funext a; apply Fin.ext
  match a with
  | ⟨0, _⟩ => show win3_3.index t (0 : Fin 2) * 1 + 1 * 0 = 0; omega
  | ⟨1, _⟩ => show win3_3.index t (1 : Fin 2) * 64 + 1 * q.val = win3_4.index t (1 : Fin 2) * 64 + 1 * q.val; omega

/-- What point `t` writes back is block `t` of the clamped update of the four arrays. -/
theorem flushed3_eq (c : Dev nD) (t : Fin cfg3.N) :
    (dat3 (F := Ideal) V c).flushed 4 t
      = ((cfg3.win 4).blk t).view.read (Elt Ideal)
          (GcnSpec.combRelu (V c main_v45) (V c main_v13) (V c main_v73) (V c main_v74)) := by
  show (cfg3.win 4).cut (grid3.coords t) ((dat3 V c).after 4 t) = _
  rw [after3_4]
  unfold out3_4
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k3_pay1 (F := Ideal) (iblk3 V c 2 t) (iblk3 V c 0 t) (iblk3 V c 1 t) (iblk3 V c 3 t) (ix2 p q)
      = GcnSpec.combRelu (V c main_v45) (V c main_v13) (V c main_v73) (V c main_v74)
          (((cfg3.win 4).blk t).view.emb (ix2 p q))
  refine (pay3_apply _ _ _ _ p q).trans ?_
  exact combRelu_at (V c main_v45) (V c main_v73) (V c main_v13) (V c main_v74) _ _ _ _ _
    (emb3_0 t p q) (emb3_2 t p q) (emb3_1 t p q) (emb3_3 t p q)

/-- An index of the array is in point `t`'s block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v75).slice (win3_4.rect t)).set ↔ _
  rw [View.set_slice_whole, Rect.mem_set_unit]
  exact Iff.rfl

/-- Every index of the array is in some point's block: row `r` is in the block of point `r / 5000`. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by rw [show cfg3.N = 20 from N_3]; omega⟩, rfl⟩
  obtain ⟨a0, a1, b0, b1, c0, c1, d0, d1, o0, o1⟩ := index_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The same for the second layer. -/
theorem final3 (c : Dev nD) :
    (dat3 (F := Ideal) V c).arrAt 4 cfg3.N
      = GcnSpec.combRelu (V c main_v45) (V c main_v13) (V c main_v73) (V c main_v74) :=
  (dat3 (F := Ideal) V c).arrAt_eq_of_cover 4 _ (fun t _ => flushed3_eq V c t) cover3

/-! ## The third layer's node update -/

/-- The body's result at `(p, q)`: the aggregate plus the node's row scaled by its column entry, plus the bias
    row. -/
theorem pay5_apply (agg h : FVec Ideal S5000x16 .f32) (d2 : FVec Ideal S5000x1 .f32) (b : FVec Ideal S1x16 .f32)
    (p : Fin 5000) (q : Fin 16) :
    k5_pay1 (F := Ideal) agg h d2 b (ix2 p q)
      = agg (ix2 p q) + h (ix2 p q) * d2 (ix2 p (0 : Fin 1)) + b (ix2 (0 : Fin 1) q) := by
  unfold k5_pay1
  simp only [shapeCast_self]
  show agg (ix2 p q) + h (ix2 p q) * broadcastTo S5000x16 d2 broadcasts_S5000x1_S5000x16 (ix2 p q)
      + broadcastTo S5000x16 b broadcasts_S1x16_S5000x16 (ix2 p q) = _
  rw [broadcastTo_a1_ab_apply d2 _ p q, broadcastTo_1b_ab_apply b _ p q]

/-- The printed index maps, decided once over the grid: point `t` reads and writes row block `t`, and the bias
    row's one block at every point. -/
theorem index_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Point `t`'s block of the node table sits where its block of the output does. -/
theorem emb5_0 (t : Fin cfg5.N) (p : Fin 5000) (q : Fin 16) :
    ((cfg5.win 0).blk t).view.emb (ix2 p q) = ((cfg5.win 4).blk t).view.emb (ix2 p q) := by
  obtain ⟨a0, a1, b0, b1, c0, c1, d0, d1, o0, o1⟩ := index_facts5 t
  funext a; apply Fin.ext
  match a with
  | ⟨0, _⟩ => show win5_0.index t (0 : Fin 2) * 5000 + 1 * p.val = win5_4.index t (0 : Fin 2) * 5000 + 1 * p.val; omega
  | ⟨1, _⟩ => show win5_0.index t (1 : Fin 2) * 16 + 1 * q.val = win5_4.index t (1 : Fin 2) * 16 + 1 * q.val; omega

/-- So does its block of the aggregate. -/
theorem emb5_2 (t : Fin cfg5.N) (p : Fin 5000) (q : Fin 16) :
    ((cfg5.win 2).blk t).view.emb (ix2 p q) = ((cfg5.win 4).blk t).view.emb (ix2 p q) := by
  obtain ⟨a0, a1, b0, b1, c0, c1, d0, d1, o0, o1⟩ := index_facts5 t
  funext a; apply Fin.ext
  match a with
  | ⟨0, _⟩ => show win5_2.index t (0 : Fin 2) * 5000 + 1 * p.val = win5_4.index t (0 : Fin 2) * 5000 + 1 * p.val; omega
  | ⟨1, _⟩ => show win5_2.index t (1 : Fin 2) * 16 + 1 * q.val = win5_4.index t (1 : Fin 2) * 16 + 1 * q.val; omega

/-- Its block of the degree column sits at the output block's rows, in the one column. -/
theorem emb5_1 (t : Fin cfg5.N) (p : Fin 5000) (q : Fin 16) :
    ((cfg5.win 1).blk t).view.emb (ix2 p (0 : Fin 1))
      = ix2 ((((cfg5.win 4).blk t).view.emb (ix2 p q)) 0) (0 : Fin 1) := by
  obtain ⟨a0, a1, b0, b1, c0, c1, d0, d1, o0, o1⟩ := index_facts5 t
  funext a; apply Fin.ext
  match a with
  | ⟨0, _⟩ => show win5_1.index t (0 : Fin 2) * 5000 + 1 * p.val = win5_4.index t (0 : Fin 2) * 5000 + 1 * p.val; omega
  | ⟨1, _⟩ => show win5_1.index t (1 : Fin 2) * 1 + 1 * 0 = 0; omega

/-- The bias row's one block sits at the one row, in the output block's columns. -/
theorem emb5_3 (t : Fin cfg5.N) (p : Fin 5000) (q : Fin 16) :
    ((cfg5.win 3).blk t).view.emb (ix2 (0 : Fin 1) q)
      = ix2 (0 : Fin 1) ((((cfg5.win 4).blk t).view.emb (ix2 p q)) 1) := by
  obtain ⟨a0, a1, b0, b1, c0, c1, d0, d1, o0, o1⟩ := index_facts5 t
  funext a; apply Fin.ext
  match a with
  | ⟨0, _⟩ => show win5_3.index t (0 : Fin 2) * 1 + 1 * 0 = 0; omega
  | ⟨1, _⟩ => show win5_3.index t (1 : Fin 2) * 16 + 1 * q.val = win5_4.index t (1 : Fin 2) * 16 + 1 * q.val; omega

/-- What point `t` writes back is block `t` of the update of the four arrays. -/
theorem flushed5_eq (c : Dev nD) (t : Fin cfg5.N) :
    (dat5 (F := Ideal) V c).flushed 4 t
      = ((cfg5.win 4).blk t).view.read (Elt Ideal)
          (GcnSpec.combLin (V c main_v76) (V c main_v13) (V c main_v104) (V c main_v105)) := by
  show (cfg5.win 4).cut (grid5.coords t) ((dat5 V c).after 4 t) = _
  rw [after5_4]
  unfold out5_4
  rw [View.canon_unit_zero zeroOffsets]
  simp only [View.ld_unit_zero (S := S5000x16) zeroOffsets, View.ld_unit_zero (S := S5000x1) zeroOffsets,
    View.ld_unit_zero (S := S1x16) zeroOffsets]
  funext j
  obtain ⟨p, q, rfl⟩ : ∃ (p : Fin 5000) (q : Fin 16), j = ix2 p q := ⟨j 0, j 1, eq_ix2 j⟩
  show k5_pay1 (F := Ideal) (iblk5 V c 2 t) (iblk5 V c 0 t) (iblk5 V c 1 t) (iblk5 V c 3 t) (ix2 p q)
      = GcnSpec.combLin (V c main_v76) (V c main_v13) (V c main_v104) (V c main_v105)
          (((cfg5.win 4).blk t).view.emb (ix2 p q))
  refine (pay5_apply _ _ _ _ p q).trans ?_
  exact combLin_at (V c main_v76) (V c main_v104) (V c main_v13) (V c main_v105) _ _ _ _ _
    (emb5_0 t p q) (emb5_2 t p q) (emb5_1 t p q) (emb5_3 t p q)

/-- An index of the array is in point `t`'s block iff each coordinate is in the block's range on its axis. -/
theorem mem_blk5 (t : Fin cfg5.N) (i : S100000x16.Idx) :
    i ∈ ((cfg5.win 4).blk t).view.set ↔ ∀ a : Fin 2, win5_4.index t a * S5000x16.size a ≤ (i a).val
      ∧ (i a).val < win5_4.index t a * S5000x16.size a + S5000x16.size a := by
  show i ∈ ((View.whole main_v106).slice (win5_4.rect t)).set ↔ _
  rw [View.set_slice_whole, Rect.mem_set_unit]
  exact Iff.rfl

/-- Every index of the array is in some point's block: row `r` is in the block of point `r / 5000`. -/
theorem cover5 (i : S100000x16.Idx) :
    ∃ t : Fin cfg5.N, (cfg5.win 4).flush t = true ∧ i ∈ ((cfg5.win 4).blk t).view.set := by
  have hi0 : (i 0).val < 100000 := (i 0).isLt
  have hi1 : (i 1).val < 16 := (i 1).isLt
  obtain ⟨t, ht⟩ : ∃ t : Fin cfg5.N, t.val = (i 0).val / 5000 :=
    ⟨⟨(i 0).val / 5000, by rw [show cfg5.N = 20 from N_5]; omega⟩, rfl⟩
  obtain ⟨a0, a1, b0, b1, c0, c1, d0, d1, o0, o1⟩ := index_facts5 t
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 16 ≤ (i 1).val ∧ (i 1).val < win5_4.index t (1 : Fin 2) * 16 + 16; omega

/-- The third layer's update has no clamp. -/
theorem final5 (c : Dev nD) :
    (dat5 (F := Ideal) V c).arrAt 4 cfg5.N
      = GcnSpec.combLin (V c main_v76) (V c main_v13) (V c main_v104) (V c main_v105) :=
  (dat5 (F := Ideal) V c).arrAt_eq_of_cover 4 _ (fun t _ => flushed5_eq V c t) cover5

end Cert.KernelIdeal.RegComb

end
-- ==== Proof.LibBlockSum.lean ====
/-
  A filtered sum over the first `B * (t + 1)` positions of `Fin N`, split into the first `B * t` positions and
  the block of `B` positions after them.

  This is the arithmetic of an accumulator that visits an array block by block: after block `t` it holds the sum
  over the positions below `B * (t + 1)`; the positions of block `t` are `B * t + n` for `n < B`.
-/
import Mathlib.Algebra.BigOperators.Group.Finset.Basic
import Mathlib.Data.Fintype.Basic
import Mathlib.Data.Fin.Basic

open scoped BigOperators

namespace BlockSum

/-- Position `n` of block `t`, as a position of the whole array. -/
def pos {N B : Nat} (t : Nat) (hN : B * (t + 1) ≤ N) (n : Fin B) : Fin N :=
  ⟨B * t + n.val, by have := n.isLt; rw [Nat.mul_succ] at hN; omega⟩

/-- Nothing lies below position `B * 0`. -/
theorem sum_below_zero {M : Type} [AddCommMonoid M] {N B : Nat} (p : Fin N → Prop) [DecidablePred p] (f : Fin N → M) :
    ∑ e ∈ Finset.univ.filter (fun e : Fin N => e.val < B * 0 ∧ p e), f e = 0 := by
  have hempty : Finset.univ.filter (fun e : Fin N => e.val < B * 0 ∧ p e) = ∅ := by
    apply Finset.filter_eq_empty_iff.mpr
    intro e _ h
    have h1 := h.1
    rw [Nat.mul_zero] at h1
    exact Nat.not_lt_zero _ h1
  rw [hempty, Finset.sum_empty]

/-- The positions below `B * (t + 1)` are those below `B * t` and the block's. -/
theorem sum_below_succ {M : Type} [AddCommMonoid M] {N B : Nat} (t : Nat) (hN : B * (t + 1) ≤ N)
    (p : Fin N → Prop) [DecidablePred p] (f : Fin N → M) :
    ∑ e ∈ Finset.univ.filter (fun e : Fin N => e.val < B * (t + 1) ∧ p e), f e
      = ∑ e ∈ Finset.univ.filter (fun e : Fin N => e.val < B * t ∧ p e), f e
        + ∑ n ∈ Finset.univ.filter (fun n : Fin B => p (pos t hN n)), f (pos t hN n) := by
  -- split the positions below `B * (t + 1)` at `B * t`
  rw [← Finset.sum_filter_add_sum_filter_not
    (Finset.univ.filter (fun e : Fin N => e.val < B * (t + 1) ∧ p e)) (fun e : Fin N => e.val < B * t) f]
  rw [Finset.filter_filter, Finset.filter_filter]
  congr 1
  · -- below `B * t` the larger bound says nothing
    refine Finset.sum_congr (Finset.filter_congr fun e _ => ?_) fun _ _ => rfl
    constructor
    · rintro ⟨⟨_, hp⟩, hlt⟩
      exact ⟨hlt, hp⟩
    · rintro ⟨hlt, hp⟩
      exact ⟨⟨by rw [Nat.mul_succ]; omega, hp⟩, hlt⟩
  · -- the positions from `B * t` up to `B * (t + 1)` are the block's, one for each `n < B`
    symm
    refine Finset.sum_nbij (fun n => pos t hN n) ?_ ?_ ?_ ?_
    · intro n hn
      rw [Finset.mem_filter] at hn ⊢
      have hnB := n.isLt
      refine ⟨Finset.mem_univ _, ⟨?_, hn.2⟩, ?_⟩
      · show B * t + n.val < B * (t + 1)
        rw [Nat.mul_succ]
        omega
      · show ¬ (B * t + n.val < B * t)
        omega
    · intro a _ b _ hab
      have hv : B * t + a.val = B * t + b.val := congrArg Fin.val hab
      exact Fin.ext (by omega)
    · intro e he
      rw [Finset.mem_coe, Finset.mem_filter] at he
      obtain ⟨_, ⟨hlt, hp⟩, hge⟩ := he
      rw [Nat.mul_succ] at hlt
      have hback : pos t hN ⟨e.val - B * t, by omega⟩ = e :=
        Fin.ext (by show B * t + (e.val - B * t) = e.val; omega)
      refine ⟨⟨e.val - B * t, by omega⟩, ?_, hback⟩
      rw [Finset.mem_coe, Finset.mem_filter]
      exact ⟨Finset.mem_univ _, by rw [hback]; exact hp⟩
    · intro n _
      rfl

/-- Once every position is below the bound the bound says nothing. -/
theorem sum_below_all {M : Type} [AddCommMonoid M] {N B T : Nat} (hN : B * T = N)
    (p : Fin N → Prop) [DecidablePred p] (f : Fin N → M) :
    ∑ e ∈ Finset.univ.filter (fun e : Fin N => e.val < B * T ∧ p e), f e
      = ∑ e ∈ Finset.univ.filter (fun e : Fin N => p e), f e := by
  refine Finset.sum_congr (Finset.filter_congr fun e _ => ?_) fun _ _ => rfl
  exact ⟨fun h => h.2, fun h => ⟨by rw [hN]; exact e.isLt, h⟩⟩

end BlockSum
-- ==== Proof.RegPool.lean ====
/-
  The pooling region: a 512-row table of graph sums built over 20 grid points.

  Point `t` reads rows `5000 t … 5000 t + 4999` of the graph-id column and of the 16-column node table, and holds the
  whole `[512, 16]` table, which is carried from point to point and written back once, after the last point. Point 0
  first stores zeros into the table. Every point then forms the one-hot matrix of its block, entry `(n, g)` being 1
  when node `n`'s id word is the 32-bit word of `g` and 0 otherwise, contracts it with the feature block over the 5000
  nodes, and adds the product to the table.

  On the extended reals a factor 1 keeps a row and a factor 0 drops it (`1 * x = x` and `0 * x = 0` hold at the
  infinities too), so a point adds, at `(g, f)`, the sum of column `f` over the rows of its block whose id word is
  `g`'s. By induction on the point, after point `n` the table's entry `(g, f)` is that sum over all rows below
  `5000 (n + 1)`; after point 19 every row is below the bound, and the table is the pooled sum.
-/
import proofs.«417690_j12515534701155_2_alg».proof.Proof.Gen.KernelIdeal.Frame
import proofs.«417690_j12515534701155_2_alg».proof.Proof.Spec
import proofs.«417690_j12515534701155_2_alg».proof.Proof.LibBlockSum
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat Cfg Window)

/- The buffers' contents when a region is entered: every statement below holds for any such contents. -/
variable (V : (c : Dev nD) → (b : Ref sig .tc) → Buf (Elt Ideal) ((c : Thread nD τ).loc b))

/-! ## What a point leaves in the table's buffer, as the body's arithmetic of what it read -/

section Pieces
variable {F : FTy → Type} [FloatOps F]

/-- The zero offsets of a whole-block access, as a constant function. -/
theorem hz6 : (![0, 0] : Fin 2 → Nat) = fun _ => 0 := funext fun a => by fin_cases a <;> rfl

/-- A point other than the first stores once: the body's sum of the table it found and the blocks' share. -/
theorem out6_B_eq (c : Dev nD) (i : grid6.Coords) (a1 : Memref sig .tc .vmem S5000x1 .i32) (h1 : a1.IsWhole)
    (a2 : Memref sig .tc .vmem S5000x16 .f32) (h2 : a2.IsWhole) (a3 : Memref sig .tc .vmem S512x16 .f32) (h3 : a3.IsWhole)
    (hc : ¬cond6_0 i) (x0 : Vec F S5000x1 .i32) (x1 : Vec F S5000x16 .f32) (xo : Vec F S512x16 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero (S := S512x16) hz6]
  simp only [View.readAt_eq_ld, h1.read_unread, h2.read_unread, h3.read_unread, View.ld_unit_zero (S := S5000x1) hz6,
    View.ld_unit_zero (S := S5000x16) hz6, View.ld_unit_zero (S := S512x16) hz6]

/-- The first point stores the zero table, reads it back, and stores the body's sum over it. -/
theorem out6_A_eq (c : Dev nD) (i : grid6.Coords) (a1 : Memref sig .tc .vmem S5000x1 .i32) (h1 : a1.IsWhole)
    (a2 : Memref sig .tc .vmem S5000x16 .f32) (h2 : a2.IsWhole) (a3 : Memref sig .tc .vmem S512x16 .f32) (h3 : a3.IsWhole)
    (hc : cond6_0 i) (x0 : Vec F S5000x1 .i32) (x1 : Vec F S5000x16 .f32) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S512x16) hz6, View.readCov_unit_zero (S := S512x16) _ hz6]
  simp only [View.readAt_eq_ld, h1.read_unread, h2.read_unread, View.ld_unit_zero (S := S5000x1) hz6,
    View.ld_unit_zero (S := S5000x16) hz6]
end Pieces

/-! ## The body's arithmetic, read at an index on the extended reals -/

section Payload

/-- The left operand of the contraction is indexed (node, graph): its axis 0, the contracted one, reads the
    contraction index's one coordinate; -/
theorem lhs6_0 (j : S512x16.Idx) (q : dot_S5000x512_S5000x16_S512x16_0_0_1_1_n_n.contr.Idx) :
    (dot_S5000x512_S5000x16_S512x16_0_0_1_1_n_n.lhsIdx j q 0).val = (q ⟨0, by decide⟩).val :=
  dot_S5000x512_S5000x16_S512x16_0_0_1_1_n_n.lhsIdx_val_of_single rfl j q
/-- its axis 1, the kept one, reads the result's row. -/
theorem lhs6_1 (j : S512x16.Idx) (q : dot_S5000x512_S5000x16_S512x16_0_0_1_1_n_n.contr.Idx) :
    (dot_S5000x512_S5000x16_S512x16_0_0_1_1_n_n.lhsIdx j q 1).val = (j 0).val := by
  unfold DotDims.lhsIdx
  rw [dif_neg (show ¬(1 : Fin S5000x512.rank) ∈ dot_S5000x512_S5000x16_S512x16_0_0_1_1_n_n.lhsBatch by decide), dif_pos (show (1 : Fin S5000x512.rank) ∈ dot_S5000x512_S5000x16_S512x16_0_0_1_1_n_n.lhsNonContracting by decide)]
  rfl
/-- The right operand is indexed (node, feature): its axis 0 reads the contraction index's coordinate; -/
theorem rhs6_0 (j : S512x16.Idx) (q : dot_S5000x512_S5000x16_S512x16_0_0_1_1_n_n.contr.Idx) :
    (dot_S5000x512_S5000x16_S512x16_0_0_1_1_n_n.rhsIdx j q 0).val = (q ⟨0, by decide⟩).val :=
  dot_S5000x512_S5000x16_S512x16_0_0_1_1_n_n.rhsIdx_val_of_single rfl j q
/-- its axis 1 reads the result's column. -/
theorem rhs6_1 (j : S512x16.Idx) (q : dot_S5000x512_S5000x16_S512x16_0_0_1_1_n_n.contr.Idx) :
    (dot_S5000x512_S5000x16_S512x16_0_0_1_1_n_n.rhsIdx j q 1).val = (j 1).val := by
  unfold DotDims.rhsIdx
  rw [dif_neg (show ¬(1 : Fin S5000x16.rank) ∈ dot_S5000x512_S5000x16_S512x16_0_0_1_1_n_n.rhsBatch by decide), dif_pos (show (1 : Fin S5000x16.rank) ∈ dot_S5000x512_S5000x16_S512x16_0_0_1_1_n_n.rhsNonContracting by decide)]
  rfl

/-- The contraction over the 5000 nodes of a block, entry `(g, f)`: `∑ n, l (n, g) * r (n, f)`. -/
theorem contract6_apply (l : FVec Ideal S5000x512 .bf16) (r : FVec Ideal S5000x16 .bf16) (g : Fin 512) (f : Fin 16) :
    FloatOps.matmul dot_S5000x512_S5000x16_S512x16_0_0_1_1_n_n none l r (constant S512x16 .f32 0x00000000#32) (ix2 g f)
      = ∑ n : Fin 5000, l (ix2 n g) * r (ix2 n f) := by
  rw [Ideal.matmul_constant_zero_apply, ← Equiv.sum_comp (ValueIdx.contrEquiv1 dot_S5000x512_S5000x16_S512x16_0_0_1_1_n_n 5000 rfl rfl).symm]
  refine Finset.sum_congr rfl fun k _ => ?_
  have hk := ValueIdx.contrEquiv1_symm_val dot_S5000x512_S5000x16_S512x16_0_0_1_1_n_n 5000 rfl rfl k
  have el : dot_S5000x512_S5000x16_S512x16_0_0_1_1_n_n.lhsIdx (ix2 g f) ((ValueIdx.contrEquiv1 dot_S5000x512_S5000x16_S512x16_0_0_1_1_n_n 5000 rfl rfl).symm k) = ix2 k g := funext fun a => Fin.ext (by
    match a with
    | ⟨0, _⟩ => exact (lhs6_0 _ _).trans hk
    | ⟨1, _⟩ => exact lhs6_1 _ _)
  have er : dot_S5000x512_S5000x16_S512x16_0_0_1_1_n_n.rhsIdx (ix2 g f) ((ValueIdx.contrEquiv1 dot_S5000x512_S5000x16_S512x16_0_0_1_1_n_n 5000 rfl rfl).symm k) = ix2 k f := funext fun a => Fin.ext (by
    match a with
    | ⟨0, _⟩ => exact (rhs6_0 _ _).trans hk
    | ⟨1, _⟩ => exact rhs6_1 _ _)
  rw [el, er]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bit of "the two words are equal", widened to 32 bits and read as a signed integer, is 1 or 0. -/
theorem eqBit_toInt (x y : BitVec 32) :
    (((IntOp.cmpi .eq x y).setWidth 32).toInt : ℤ) = if x = y then 1 else 0 := by
  unfold IntOp.cmpi
  by_cases h : x = y
  · subst h; simp
  · rw [if_neg h]
    have : (x == y) = false := by simpa using h
    simp [this]

end Payload

section Payload2

/-- The one-hot entry `(n, g)` of a block: 1 when node `n`'s id word is the word of `g`, else 0. -/
theorem onehot_apply (ids : IVec S5000x1 32) (n : Fin 5000) (g : Fin 512) :
    (truncf .bf16 (sitofp .f32 (extui 32 (cmpi .eq
        (broadcastTo S5000x512 (shapeCast S5000x1 ids shapeCasts_S5000x1_S5000x1) broadcasts_S5000x1_S5000x512)
        (broadcastTo S5000x512 (iota .tc S1x512 32 [1] iota_S1x512_d1_w32) broadcasts_S1x512_S5000x512)) natLt_1_32)) bitsLt_bf16_f32
      : FVec Ideal S5000x512 .bf16) (ix2 n g)
      = if ids (ix2 n (0 : Fin 1)) = BitVec.ofNat 32 g.val then (1 : EReal) else 0 := by
  have e6 : broadcastTo S5000x512 (shapeCast S5000x1 ids shapeCasts_S5000x1_S5000x1) broadcasts_S5000x1_S5000x512 (ix2 n g)
      = ids (ix2 n (0 : Fin 1)) := by
    rw [shapeCast_self]; exact broadcastTo_a1_ab_apply ids _ n g
  have e7 : broadcastTo S5000x512 (iota .tc S1x512 32 [1] iota_S1x512_d1_w32) broadcasts_S1x512_S5000x512 (ix2 n g)
      = BitVec.ofNat 32 g.val := by
    refine (broadcastTo_1b_ab_apply _ _ n g).trans ?_
    exact iota_single_apply .tc S1x512 32 1 _ (ix2 (0 : Fin 1) g)
  show ((((IntOp.cmpi .eq (broadcastTo S5000x512 (shapeCast S5000x1 ids shapeCasts_S5000x1_S5000x1) broadcasts_S5000x1_S5000x512 (ix2 n g))
      (broadcastTo S5000x512 (iota .tc S1x512 32 [1] iota_S1x512_d1_w32) broadcasts_S1x512_S5000x512 (ix2 n g))).setWidth 32).toInt : ℝ) : EReal) = _
  rw [e6, e7, eqBit_toInt]
  split <;> simp

/-- What a point stores, at `(g, f)`: the table's entry before, plus the one-hot contraction of the point's block. -/
theorem pay2_apply (ids : Vec Ideal S5000x1 .i32) (hb : Vec Ideal S5000x16 .f32) (prev : Vec Ideal S512x16 .f32)
    (g : Fin 512) (f : Fin 16) :
    k6_pay2 (F := Ideal) ids hb prev (ix2 g f)
      = prev (ix2 g f) + ∑ n : Fin 5000,
          (if ids (ix2 n (0 : Fin 1)) = BitVec.ofNat 32 g.val then (1 : EReal) else 0) * hb (ix2 n f) := by
  unfold k6_pay2
  refine (addf_apply _ _ (ix2 g f)).trans ?_
  refine congrArg₂ (· + ·) ?_ ?_
  · exact congrFun (shapeCast_self prev _) (ix2 g f)
  · refine (contract6_apply _ _ g f).trans (Finset.sum_congr rfl fun n _ => ?_)
    refine congrArg₂ (· * ·) ?_ ?_
    · exact onehot_apply ids n g
    · exact congrFun (shapeCast_self hb _) (ix2 n f)

/-- The table the first point stores before it adds: zero everywhere. -/
theorem pay1_apply (j : S512x16.Idx) : (k6_pay1 (F := Ideal)) j = 0 := by
  show Ideal.ofBits .f32 0x00000000#32 = 0
  exact Ideal.ofBits_zero_f32

end Payload2

/-! ## The blocks a point reads, and the table after each point -/

section Blocks

/-- The id block of point `t`: rows `5000 t … 5000 t + 4999` of the id column. -/
abbrev idblk (c : Dev nD) (t : Fin cfg6.N) : Vec Ideal S5000x1 .i32 := iblk6 V c 0 t
/-- The feature block of point `t`: the same rows of the node table. -/
abbrev hblk (c : Dev nD) (t : Fin cfg6.N) : Vec Ideal S5000x16 .f32 := iblk6 V c 1 t
/-- The id column as the region finds it. -/
abbrev idarr (c : Dev nD) : Vec Ideal S100000x1 .i32 := V c main_v107
/-- The node table as the region finds it. -/
abbrev harr (c : Dev nD) : Vec Ideal S100000x16 .f32 := V c main_v106

/-- The block index of the two input windows is the point's number on the row axis and 0 on the other; the table's
    window does not move. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Entry `(n, 0)` of point `t`'s id block is the id column at row `5000 t + n`. -/
theorem idblk_apply (c : Dev nD) (t : Fin cfg6.N) (hN : 5000 * (t.val + 1) ≤ 100000) (n : Fin 5000) :
    idblk V c t (ix2 n (0 : Fin 1)) = idarr V c (ix2 (BlockSum.pos t.val hN n) (0 : Fin 1)) := by
  obtain ⟨e0, e1, -⟩ := idx_facts6 t
  show V c main_v107 (((cfg6.win 0).blk t).view.emb (ix2 n (0 : Fin 1))) = V c main_v107 (ix2 (BlockSum.pos t.val hN n) (0 : Fin 1))
  refine congrArg _ (funext fun a => Fin.ext ?_)
  match a with
  | ⟨0, _⟩ => show win6_0.index t (0 : Fin 2) * 5000 + 1 * n.val = 5000 * t.val + n.val; omega
  | ⟨1, _⟩ => show win6_0.index t (1 : Fin 2) * 1 + 1 * 0 = 0; omega

/-- Entry `(n, f)` of point `t`'s feature block is the node table at row `5000 t + n`, column `f`. -/
theorem hblk_apply (c : Dev nD) (t : Fin cfg6.N) (hN : 5000 * (t.val + 1) ≤ 100000) (n : Fin 5000) (f : Fin 16) :
    hblk V c t (ix2 n f) = harr V c (ix2 (BlockSum.pos t.val hN n) f) := by
  obtain ⟨-, -, e0, e1, -⟩ := idx_facts6 t
  show V c main_v106 (((cfg6.win 1).blk t).view.emb (ix2 n f)) = V c main_v106 (ix2 (BlockSum.pos t.val hN n) f)
  refine congrArg _ (funext fun a => Fin.ext ?_)
  match a with
  | ⟨0, _⟩ => show win6_1.index t (0 : Fin 2) * 5000 + 1 * n.val = 5000 * t.val + n.val; omega
  | ⟨1, _⟩ => show win6_1.index t (1 : Fin 2) * 16 + 1 * f.val = f.val; omega

/-- The one-hot contraction of point `t`'s blocks, at `(g, f)`, is the sum of the node table's column `f` over the
    rows of the block whose id word is the word of `g`: a factor 1 keeps its row, a factor 0 drops it. -/
theorem block_sum_eq (c : Dev nD) (t : Fin cfg6.N) (hN : 5000 * (t.val + 1) ≤ 100000) (g : Fin 512) (f : Fin 16) :
    ∑ n : Fin 5000, (if idblk V c t (ix2 n (0 : Fin 1)) = BitVec.ofNat 32 g.val then (1 : EReal) else 0) * hblk V c t (ix2 n f)
      = ∑ n ∈ Finset.univ.filter (fun n : Fin 5000 => idarr V c (ix2 (BlockSum.pos t.val hN n) (0 : Fin 1)) = BitVec.ofNat 32 g.val),
          harr V c (ix2 (BlockSum.pos t.val hN n) f) := by
  rw [Finset.sum_filter]
  refine Finset.sum_congr rfl fun n _ => ?_
  rw [idblk_apply V c t hN n, hblk_apply V c t hN n f]
  split
  · rw [one_mul]
  · rw [zero_mul]

end Blocks

section Table

/-- THE TABLE AFTER POINT `n`: entry `(g, f)` is the sum of the node table's column `f` over the rows below
    `5000 (n + 1)` whose id word is the word of `g`. Point 0 stores zeros and adds its block's share; every later
    point adds its block's share to what the point before left. -/
theorem table_inv (c : Dev nD) : ∀ (n : ℕ) (hn : n < cfg6.N) (g : Fin 512) (f : Fin 16),
    outsAt6 (F := Ideal) V c n hn (ix2 g f)
      = ∑ e ∈ Finset.univ.filter (fun e : Fin 100000 => e.val < 5000 * (n + 1) ∧ idarr V c (ix2 e (0 : Fin 1)) = BitVec.ofNat 32 g.val),
          harr V c (ix2 e f)
  | 0, hn, g, f => by
    have hN : 5000 * ((⟨0, hn⟩ : Fin cfg6.N).val + 1) ≤ 100000 := by dsimp only; omega
    refine (congrFun ((outsAt6_A V c ⟨0, hn⟩ rfl).trans (out6_A_eq (F := Ideal) c (grid6.coords ⟨0, hn⟩) (ms6_0 ⟨0, hn⟩) (hs6_0 ⟨0, hn⟩)
      (ms6_1 ⟨0, hn⟩) (hs6_1 ⟨0, hn⟩) (ms6_2 ⟨0, hn⟩) (hs6_2 ⟨0, hn⟩) ((hcond6_0 ⟨0, hn⟩).mpr rfl) (idblk V c ⟨0, hn⟩) (hblk V c ⟨0, hn⟩)))
      (ix2 g f)).trans ?_
    rw [pay2_apply, pay1_apply, zero_add, block_sum_eq V c ⟨0, hn⟩ hN g f, BlockSum.sum_below_succ 0 hN, BlockSum.sum_below_zero, zero_add]
  | n + 1, hn, g, f => by
    have hN20 : cfg6.N = 20 := N_6
    have hB : ¬(⟨n + 1, hn⟩ : Fin cfg6.N).val % 20 = 0 := by dsimp only; omega
    have hN : 5000 * ((⟨n + 1, hn⟩ : Fin cfg6.N).val + 1) ≤ 100000 := by dsimp only; omega
    rw [outsAt6_B V c ⟨n + 1, hn⟩ hB]
    dsimp only
    refine (congrFun (out6_B_eq (F := Ideal) c (grid6.coords ⟨n + 1, hn⟩) (ms6_0 ⟨n + 1, hn⟩) (hs6_0 ⟨n + 1, hn⟩)
      (ms6_1 ⟨n + 1, hn⟩) (hs6_1 ⟨n + 1, hn⟩) (ms6_2 ⟨n + 1, hn⟩) (hs6_2 ⟨n + 1, hn⟩) (fun h => hB ((hcond6_0 ⟨n + 1, hn⟩).mp h))
      (idblk V c ⟨n + 1, hn⟩) (hblk V c ⟨n + 1, hn⟩) (outsAt6 V c n (Nat.lt_of_succ_lt hn))) (ix2 g f)).trans ?_
    rw [pay2_apply, table_inv c n (Nat.lt_of_succ_lt hn) g f, block_sum_eq V c ⟨n + 1, hn⟩ hN g f, BlockSum.sum_below_succ (n + 1) hN]

/-- After the last point the table is the pooled sum: every row is below `5000 · 20`. -/
theorem table_last (c : Dev nD) (h : 19 < cfg6.N) :
    outsAt6 (F := Ideal) V c 19 h = GcnSpec.poolSum (G := 512) (V c main_v107) (V c main_v106) := by
  funext j
  obtain ⟨g, f, rfl⟩ : ∃ (g : Fin 512) (f : Fin 16), j = ix2 g f := ⟨j 0, j 1, eq_ix2 j⟩
  rw [table_inv V c 19 h g f]
  exact BlockSum.sum_below_all (B := 5000) (T := 20) (by norm_num) _ _

end Table

/-! ## The array after the region -/

section Final

/-- The table's window is the whole array and is written back once, after point 19: what is written is the table then. -/
theorem flushed6_eq (c : Dev nD) (t : Fin cfg6.N) (hf : (cfg6.win 2).flush t = true) :
    (dat6 (F := Ideal) V c).flushed 2 t
      = ((cfg6.win 2).blk t).view.read (Elt Ideal) (GcnSpec.poolSum (G := 512) (V c main_v107) (V c main_v106)) := by
  have hN : cfg6.N = 20 := N_6
  have h19 : t.val = 19 := by have := (flush6_2 t).mp hf; have := t.isLt; omega
  obtain ⟨t, ht⟩ := t
  obtain rfl : t = 19 := h19
  show (cfg6.win 2).cut (grid6.coords ⟨19, ht⟩) ((dat6 V c).after 2 ⟨19, ht⟩) = _
  rw [after6_2, table_last V c ht]
  obtain ⟨-, -, -, -, e0, e1⟩ := idx_facts6 ⟨19, ht⟩
  have hz' : (fun a => win6_2.index ⟨19, ht⟩ a * main_v108.ty.shape.size a) = fun _ => 0 :=
    funext fun a => by
      match a with
      | ⟨0, _⟩ => show win6_2.index ⟨19, ht⟩ (0 : Fin 2) * 512 = 0; omega
      | ⟨1, _⟩ => show win6_2.index ⟨19, ht⟩ (1 : Fin 2) * 16 = 0; omega
  exact (Memref.read_access_unit_zero (Elt Ideal) main_v108 hz' (fun a => by rw [congrFun hz' a]; simp) _).symm

end Final

/-- After the pooling region the 512-row table holds, in row `g`, the sum of the node rows whose graph-id word is
    the word of `g`: the table is zeroed at the first grid point and every point adds its 5000 nodes' share. -/
theorem final6 (c : Dev nD) :
    (dat6 (F := Ideal) V c).arrAt 2 cfg6.N = GcnSpec.poolSum (G := 512) (V c main_v107) (V c main_v106) := by
  have h19 : 19 < cfg6.N := by rw [show cfg6.N = 20 from N_6]; decide
  refine (dat6 (F := Ideal) V c).arrAt_eq_of_cover 2 (GcnSpec.poolSum (G := 512) (V c main_v107) (V c main_v106))
    (flushed6_eq V c) fun i => ⟨⟨19, h19⟩, (flush6_2 _).mpr rfl, ?_⟩
  show i ∈ ((View.whole main_v108).slice (win6_2.rect ⟨19, h19⟩)).set
  rw [View.set_slice_whole, Rect.mem_set_unit]
  intro a
  have h0 : (i 0 : Nat) < 512 := (i 0).isLt
  have h1 : (i 1 : Nat) < 16 := (i 1).isLt
  obtain ⟨-, -, -, -, e0, e1⟩ := idx_facts6 ⟨19, h19⟩
  match a with
  | ⟨0, _⟩ =>
    show win6_2.index ⟨19, h19⟩ (0 : Fin 2) * 512 ≤ (i 0 : Nat) ∧ (i 0 : Nat) < win6_2.index ⟨19, h19⟩ (0 : Fin 2) * 512 + 512
    omega
  | ⟨1, _⟩ =>
    show win6_2.index ⟨19, h19⟩ (1 : Fin 2) * 16 ≤ (i 1 : Nat) ∧ (i 1 : Nat) < win6_2.index ⟨19, h19⟩ (1 : Fin 2) * 16 + 16
    omega

end Cert.KernelIdeal.Reg

end
-- ==== Proof.RefBridge.lean ====
import proofs.«417690_j12515534701155_2_alg».proof.Proof.Gen.ReferenceIdeal.Read
import proofs.«417690_j12515534701155_2_alg».proof.Proof.Spec
import proofs.«417690_j12515534701155_2_alg».proof.Proof.LibPlainDot

set_option maxRecDepth 16384

noncomputable section

open scoped BigOperators

namespace Cert.ReferenceIdeal.Bridge

open Cert.ReferenceIdeal Cert.ReferenceIdeal.Read
open Idealize.ShloMosaic Idealize.ShloMosaic.TcCoe Idealize.ShloMosaic.ValueIdx Idealize.ShloMosaic.StableHlo

variable (x0 : (⟨S100000x128, .f32⟩ : BufTy).Contents (Elt Ideal)) (x1 : (⟨S2x1200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x16, .f32⟩ : BufTy).Contents (Elt Ideal)) (x8 : (⟨S16, .f32⟩ : BufTy).Contents (Elt Ideal))

/-! ## The three matrix products

Each product's entry at `(p, q)` is read as the sum over `k` of the left table at `(p, k)` times the right
table at `(k, q)`; the two index functions of that reading are the index constructors of the specification. -/

theorem v12_eq : val_main_v12 (F := Ideal) x0 x3 = GcnSpec.mm x0 x3 := by
  funext i
  rw [val_main_v12_apply]
  unfold GcnSpec.mm
  refine Finset.sum_congr rfl fun k _ => ?_
  have el : lidx_main_v12 i k = ix2 (i 0) k :=
    funext fun a => Fin.ext (by match a with | ⟨0, _⟩ => rfl | ⟨1, _⟩ => rfl)
  have er : ridx_main_v12 i k = ix2 k (i 1) :=
    funext fun a => Fin.ext (by match a with | ⟨0, _⟩ => rfl | ⟨1, _⟩ => rfl)
  rw [el, er]
  rfl

theorem v50_eq : val_main_v50 (F := Ideal) x0 x1 x3 x4 x5 = GcnSpec.mm (val_main_v49 (F := Ideal) x0 x1 x3 x4) x5 := by
  funext i
  rw [val_main_v50_apply]
  generalize val_main_v49 (F := Ideal) x0 x1 x3 x4 = y
  unfold GcnSpec.mm
  refine Finset.sum_congr rfl fun k _ => ?_
  have el : lidx_main_v50 i k = ix2 (i 0) k :=
    funext fun a => Fin.ext (by match a with | ⟨0, _⟩ => rfl | ⟨1, _⟩ => rfl)
  have er : ridx_main_v50 i k = ix2 k (i 1) :=
    funext fun a => Fin.ext (by match a with | ⟨0, _⟩ => rfl | ⟨1, _⟩ => rfl)
  rw [el, er]
  rfl

theorem v88_eq : val_main_v88 (F := Ideal) x0 x1 x3 x4 x5 x6 x7
    = GcnSpec.mm (val_main_v87 (F := Ideal) x0 x1 x3 x4 x5 x6) x7 := by
  funext i
  rw [val_main_v88_apply]
  generalize val_main_v87 (F := Ideal) x0 x1 x3 x4 x5 x6 = y
  unfold GcnSpec.mm
  refine Finset.sum_congr rfl fun k _ => ?_
  have el : lidx_main_v88 i k = ix2 (i 0) k :=
    funext fun a => Fin.ext (by match a with | ⟨0, _⟩ => rfl | ⟨1, _⟩ => rfl)
  have er : ridx_main_v88 i k = ix2 k (i 1) :=
    funext fun a => Fin.ext (by match a with | ⟨0, _⟩ => rfl | ⟨1, _⟩ => rfl)
  rw [el, er]
  rfl

/-! ## The three node updates

A node update's entry at `(p, q)` is the aggregate at `(p, q)`, plus the node's own product entry times the
squared inverse-root degree of node `p`, plus the bias of column `q`.  The degree factor reaches `(p, q)` through
a column `(p, 0)` and the bias through a row `(0, q)`: composing the two layout steps, the factor is read at `p`
and the bias at `q`.  The first two layers then take the maximum with the float zero. -/

theorem v49_eq : val_main_v49 (F := Ideal) x0 x1 x3 x4
    = GcnSpec.combRelu (val_main_v12 (F := Ideal) x0 x3) (GcnSpec.d2col (val_main_v11 (F := Ideal) x1))
        (val_main_v40 (F := Ideal) x0 x1 x3) (GcnSpec.brow x4) := by
  funext i
  have ed : idx_main_v42 (idx_main_v43 i) = ix1 (i 0) :=
    funext fun a => Fin.ext (by match a with | ⟨0, _⟩ => rfl)
  have eb : idx_main_v46 (idx_main_v47 i) = ix1 (i 1) :=
    funext fun a => Fin.ext (by match a with | ⟨0, _⟩ => rfl)
  rw [val_main_v49_apply, val_main_v48_apply, val_main_v45_apply, val_main_v44_apply, val_main_v43_apply,
    val_main_v42_apply, val_main_v41_apply, val_main_v47_apply, val_main_v46_apply, val_main_call0_v0_apply,
    val_main_call0_cst_apply]
  simp only [ed, eb, Ideal.addf_def, Ideal.mulf_def, Ideal.maximumf_def, Ideal.ofBits_def]
  generalize val_main_v40 (F := Ideal) x0 x1 x3 = agg
  generalize val_main_v12 (F := Ideal) x0 x3 = h
  generalize val_main_v11 (F := Ideal) x1 = dis
  rfl

theorem v87_eq : val_main_v87 (F := Ideal) x0 x1 x3 x4 x5 x6
    = GcnSpec.combRelu (val_main_v50 (F := Ideal) x0 x1 x3 x4 x5) (GcnSpec.d2col (val_main_v11 (F := Ideal) x1))
        (val_main_v78 (F := Ideal) x0 x1 x3 x4 x5) (GcnSpec.brow x6) := by
  funext i
  have ed : idx_main_v80 (idx_main_v81 i) = ix1 (i 0) :=
    funext fun a => Fin.ext (by match a with | ⟨0, _⟩ => rfl)
  have eb : idx_main_v84 (idx_main_v85 i) = ix1 (i 1) :=
    funext fun a => Fin.ext (by match a with | ⟨0, _⟩ => rfl)
  rw [val_main_v87_apply, val_main_v86_apply, val_main_v83_apply, val_main_v82_apply, val_main_v81_apply,
    val_main_v80_apply, val_main_v79_apply, val_main_v85_apply, val_main_v84_apply, val_main_call1_v0_apply,
    val_main_call1_cst_apply]
  simp only [ed, eb, Ideal.addf_def, Ideal.mulf_def, Ideal.maximumf_def, Ideal.ofBits_def]
  generalize val_main_v78 (F := Ideal) x0 x1 x3 x4 x5 = agg
  generalize val_main_v50 (F := Ideal) x0 x1 x3 x4 x5 = h
  generalize val_main_v11 (F := Ideal) x1 = dis
  rfl

theorem v124_eq : val_main_v124 (F := Ideal) x0 x1 x3 x4 x5 x6 x7 x8
    = GcnSpec.combLin (val_main_v88 (F := Ideal) x0 x1 x3 x4 x5 x6 x7) (GcnSpec.d2col (val_main_v11 (F := Ideal) x1))
        (val_main_v116 (F := Ideal) x0 x1 x3 x4 x5 x6 x7) (GcnSpec.brow x8) := by
  funext i
  have ed : idx_main_v118 (idx_main_v119 i) = ix1 (i 0) :=
    funext fun a => Fin.ext (by match a with | ⟨0, _⟩ => rfl)
  have eb : idx_main_v122 (idx_main_v123 i) = ix1 (i 1) :=
    funext fun a => Fin.ext (by match a with | ⟨0, _⟩ => rfl)
  rw [val_main_v124_apply, val_main_v121_apply, val_main_v120_apply, val_main_v119_apply, val_main_v118_apply,
    val_main_v117_apply, val_main_v123_apply, val_main_v122_apply]
  simp only [ed, eb, Ideal.addf_def, Ideal.mulf_def]
  generalize val_main_v116 (F := Ideal) x0 x1 x3 x4 x5 x6 x7 = agg
  generalize val_main_v88 (F := Ideal) x0 x1 x3 x4 x5 x6 x7 = h
  generalize val_main_v11 (F := Ideal) x1 = dis
  rfl

end Cert.ReferenceIdeal.Bridge

end
-- ==== Proof.LibRowIndex.lean ====
import Idealize.ShloMosaic.Lib.StableHlo.Predicate

/-!
# Row gathers and row scatters read at an index

A table of `N` rows of `C` columns, indexed along its rows by a column of `n` positions:

* the row gather (the row axis collapsed and named by the one start-index component, the column axis kept
  whole) reads, at `(e, j)`, row `idx[e]` — read signed and clamped into the table — at column `j`;
* the row scatter (the row axis inserted and named by the one scatter-index component, the column axis the
  update's window) sends update `(e, j)` to row `idx[e]`, read signed and NOT clamped: an update that is kept
  lands on exactly the row its index names.
-/

namespace Idealize.ShloMosaic.RowIndex

open Idealize.ShloMosaic Idealize.ShloMosaic.StableHlo.Predicate

/-! ## The row scatter -/

/-- The start of update `y`'s window on the row axis is its scatter index, read signed. -/
theorem scatter_rows_start {N C n w : Nat} (d : ScatterDims ⟨2, ![N, C]⟩ ⟨2, ![n, 1]⟩ ⟨2, ![n, C]⟩)
    (hu : d.updateWindowDims = [1]) (hs : d.scatterDimsToOperandDims = [0]) (hv : d.indexVectorDim = 1)
    (idx : IVec ⟨2, ![n, 1]⟩ w) (y : (⟨2, ![n, C]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 2, q = 0 → (y q).val = (y 0).val := fun q hq => by subst hq; rfl
    exact e _ (by rfl)
  | ⟨1, _⟩ =>
    unfold ScatterDims.siIdx
    rw [dif_pos (by simp)]
    apply Fin.ext
    show List.idxOf (0 : Fin 2) [0] = 0
    simp

/-- The row axis is inserted: an update has no window coordinate on it. -/
theorem scatter_rows_window0 {N C n : Nat} (d : ScatterDims ⟨2, ![N, C]⟩ ⟨2, ![n, 1]⟩ ⟨2, ![n, C]⟩)
    (hi : d.insertedWindowDims = [0]) (y : (⟨2, ![n, C]⟩ : Shape).Idx) : d.window y 0 = 0 := by
  unfold ScatterDims.window
  rw [dif_neg (by rw [ScatterDims.sKept, hi]; simp [Shape.kept])]

/-- An update of a row scatter that is kept lands on the row its index names. -/
theorem scatter_rows_lands {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (y : (⟨2, ![n, C]⟩ : Shape).Idx)
    (i : (⟨2, ![N, C]⟩ : Shape).Idx) (h : d.resultIdx? y idx = some i) :
    (idx (ixP (n := n) (y 0))).toInt = ((i 0).val : Int) := by
  have hst := scatter_rows_start d hu hs hv idx y
  have hw := scatter_rows_window0 d hi y
  unfold ScatterDims.resultIdx? at h
  split at h
  · next hall =>
    have h0 := (hall 0).1
    have hi0 := congrArg Fin.val (congrFun (Option.some.inj h) 0)
    simp only [] at hi0
    omega
  · exact absurd h (by simp)

/-! ## The row gather -/

/-- The start of result `y`'s slice on the row axis is its start index, read signed and clamped into the table. -/
theorem gather_rows_start {N C n w : Nat} (d : GatherDims ⟨2, ![N, C]⟩ ⟨2, ![n, 1]⟩ ⟨2, ![n, C]⟩)
    (hoff : d.offsetDims = [1]) (hcoll : d.collapsedSliceDims = [0])
    (hsim : d.startIndexMap = [0]) (hivd : d.indexVectorDim = 1)
    (idx : IVec ⟨2, ![n, 1]⟩ w) (y : (⟨2, ![n, C]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (0 : Fin 2) [0] = 0
    simp

/-- The column axis is the one kept axis: result `y`'s offset on it is its own column. -/
theorem gather_rows_off1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (y : (⟨2, ![n, C]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 2, q = 1 → (y q).val = (y 1).val := fun q hq => by subst hq; rfl
  exact e _ (by rfl)

/-- A row gather read at `(e, j)`: row `idx[e]`, read signed and clamped into the table, at column `j`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) (hN : 0 < N) :
    Host.gather d x idx (ij e j) = x (ij ⟨min (idx (ixP e)).toInt.toNat (N - 1), by omega⟩ j) := by
  unfold Host.gather
  congr 1
  funext a
  have hnb : ∀ a : Fin 2, a ∉ d.operandBatchingDims := fun a => by rw [hob]; exact List.not_mem_nil
  match a with
  | ⟨0, _⟩ =>
    apply Fin.ext
    have hb := d.batchCoord_eq_zero (ij e j) 0 (hnb 0)
    have ho := d.offCoord_eq_zero (ij e j) 0 (by rw [GatherDims.mem_sKept, hcoll]; simp)
    have hst : d.start (ij e j) idx 0 = min (idx (ixP e)).toInt.toNat (N - 1) :=
      gather_rows_start d hoff hcoll hsim hivd idx (ij e j)
    show d.start (ij e j) idx 0 + d.batchCoord (ij e j) 0 + d.offCoord (ij e j) 0 = min (idx (ixP e)).toInt.toNat (N - 1)
    omega
  | ⟨1, _⟩ =>
    apply Fin.ext
    have hb := d.batchCoord_eq_zero (ij e j) 1 (hnb 1)
    have ho : d.offCoord (ij e j) 1 = j.val := gather_rows_off1 d hoff hcoll hob (ij e j)
    have hst : d.start (ij e j) idx 1 = 0 := by
      unfold GatherDims.start
      rw [dif_neg (by rw [hsim]; simp)]
    show d.start (ij e j) idx 1 + d.batchCoord (ij e j) 1 + d.offCoord (ij e j) 1 = j.val
    omega

end Idealize.ShloMosaic.RowIndex
-- ==== Proof.LibRowSum.lean ====
import proofs.«417690_j12515534701155_2_alg».proof.Proof.LibRowIndex
import Idealize.ShloMosaic.PureOps.Ideal
import Idealize.ShloMosaic.Lib.ValueIdx

/-!
# Row scatters summed, and rows of rank-3 tables

For a table of `N` rows indexed along its rows by a column of `n` index words:

* the updates of a row scatter that land on element `(r, col)` are exactly those in column `col` whose index word,
  read signed, is `r`; so a sum over the landing updates is a sum over those positions;
* the same for a table whose rows are `A × B` rectangles (the row axis inserted, both rectangle axes the window);
* a row gather from such a table reads, at `(e, a, b)`, row `idx[e]` (read signed, clamped into the table) at `(a, b)`.
-/

open scoped BigOperators

namespace Idealize.ShloMosaic.RowIndex

open Idealize.ShloMosaic Idealize.ShloMosaic.StableHlo.Predicate Idealize.ShloMosaic.ValueIdx

/-! ## The row scatter into an `[N, C]` table -/

/-- The column axis is the window: an update's window coordinate on it is its own column. -/
theorem scatter_rows_window1 {N C n : Nat} (d : ScatterDims ⟨2, ![N, C]⟩ ⟨2, ![n, 1]⟩ ⟨2, ![n, C]⟩)
    (hu : d.updateWindowDims = [1]) (hi : d.insertedWindowDims = [0]) (y : (⟨2, ![n, C]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 2, q = 1 → (y q).val = (y 1).val := fun q hq => by subst hq; rfl
  exact e _ (by rfl)

/-- The column axis is not named by the scatter index: the window starts at column `0`. -/
theorem scatter_rows_start1 {N C n w : Nat} (d : ScatterDims ⟨2, ![N, C]⟩ ⟨2, ![n, 1]⟩ ⟨2, ![n, C]⟩)
    (hs : d.scatterDimsToOperandDims = [0]) (idx : IVec ⟨2, ![n, 1]⟩ w) (y : (⟨2, ![n, C]⟩ : Shape).Idx) :
    d.start y idx 1 = 0 := by
  unfold ScatterDims.start
  rw [dif_neg (by rw [hs]; simp)]

/-- Update `j` lands on `i` exactly when its index word reads row `i 0` and its column is `i 1`. -/
theorem scatter_rows_iff {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (j : (⟨2, ![n, C]⟩ : Shape).Idx)
    (i : (⟨2, ![N, C]⟩ : Shape).Idx) :
    d.resultIdx? j idx = some i ↔
      (idx (ixP (n := n) (j 0))).toInt = ((i 0).val : Int) ∧ (j 1).val = (i 1).val := by
  have hst0 := scatter_rows_start d hu hs hv idx j
  have hw0 := scatter_rows_window0 d hi j
  have hst1 := scatter_rows_start1 d hs idx j
  have hw1 := scatter_rows_window1 d hu hi j
  have hiN : (i 0).val < N := (i 0).isLt
  have hjC : (j 1).val < C := (j 1).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      simp only [] at hi0 hi1
      constructor <;> omega
    · exact absurd h (by simp)
  · rintro ⟨h0, h1⟩
    have hall : ∀ a, 0 ≤ d.start j idx a + d.window j a ∧ d.start j idx a + d.window j a < (⟨2, ![N, C]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (C : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega

/-- A sum over the updates of a row scatter that land on `i = (r, col)` is the sum, over the positions whose index
    word reads `r`, of the update at `(position, col)`. -/
theorem scatter_rows_sum {M : Type} [AddCommMonoid M] {N C n w : Nat}
    (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (upd : (⟨2, ![n, C]⟩ : Shape).Idx → M)
    (i : (⟨2, ![N, C]⟩ : Shape).Idx) :
    ∑ j ∈ Finset.univ.filter (fun j => d.resultIdx? j idx = some i), upd j
      = ∑ e ∈ Finset.univ.filter (fun e : Fin n => (idx (ixP e)).toInt = ((i 0).val : Int)), upd (ij e (i 1)) := by
  have key := scatter_rows_iff d hu hi hs hv idx
  have back : ∀ j : (⟨2, ![n, C]⟩ : Shape).Idx, (j 1).val = (i 1).val → ij (n := n) (m := C) (j 0) (i 1) = j := by
    intro j h1
    funext b
    match b with
    | ⟨0, _⟩ => rfl
    | ⟨1, _⟩ => exact Fin.ext h1.symm
  refine Finset.sum_nbij' (fun j => (j 0 : Fin n)) (fun e => ij e (i 1)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ij e (i 1)) i).2 ⟨(Finset.mem_filter.mp he).2, rfl⟩⟩
  · intro j hj
    rw [Finset.mem_filter] at hj
    exact back j ((key j i).1 hj.2).2
  · intro e _
    rfl
  · intro j hj
    rw [Finset.mem_filter] at hj
    show upd j = upd (ij (j 0) (i 1))
    rw [back j ((key j i).1 hj.2).2]

/-! ## The row scatter into an `[N, A, B]` table -/

/-- The start of update `y`'s window on the row axis is its scatter index, read signed. -/
theorem scatter_rows3_start {N A B n w : Nat} (d : ScatterDims ⟨3, ![N, A, B]⟩ ⟨2, ![n, 1]⟩ ⟨3, ![n, A, B]⟩)
    (hu : d.updateWindowDims = [1, 2]) (hs : d.scatterDimsToOperandDims = [0]) (hv : d.indexVectorDim = 1)
    (idx : IVec ⟨2, ![n, 1]⟩ w) (y : (⟨3, ![n, A, B]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 3, q = 0 → (y q).val = (y 0).val := fun q hq => by subst hq; rfl
    exact e _ (by rfl)
  | ⟨1, _⟩ =>
    unfold ScatterDims.siIdx
    rw [dif_pos (by simp)]
    apply Fin.ext
    show List.idxOf (0 : Fin 3) [0] = 0
    simp

/-- The two rectangle axes are not named by the scatter index: the window starts at `0` on them. -/
theorem scatter_rows3_start_ne {N A B n w : Nat} (d : ScatterDims ⟨3, ![N, A, B]⟩ ⟨2, ![n, 1]⟩ ⟨3, ![n, A, B]⟩)
    (hs : d.scatterDimsToOperandDims = [0]) (idx : IVec ⟨2, ![n, 1]⟩ w) (y : (⟨3, ![n, A, B]⟩ : Shape).Idx)
    (a : Fin 3) (ha : a ≠ 0) : d.start y idx a = 0 := by
  unfold ScatterDims.start
  rw [dif_neg (by rw [hs]; simpa using ha)]

/-- The row axis is inserted: an update has no window coordinate on it. -/
theorem scatter_rows3_window0 {N A B n : Nat} (d : ScatterDims ⟨3, ![N, A, B]⟩ ⟨2, ![n, 1]⟩ ⟨3, ![n, A, B]⟩)
    (hi : d.insertedWindowDims = [0]) (y : (⟨3, ![n, A, B]⟩ : Shape).Idx) : d.window y 0 = 0 := by
  unfold ScatterDims.window
  rw [dif_neg (by rw [ScatterDims.sKept, hi]; simp [Shape.kept])]

/-- The first rectangle axis is a window axis: an update's window coordinate on it is its own. -/
theorem scatter_rows3_window1 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 3, q = 1 → (y q).val = (y 1).val := fun q hq => by subst hq; rfl
  exact e _ (by rfl)

/-- The second rectangle axis is a window axis: an update's window coordinate on it is its own. -/
theorem scatter_rows3_window2 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 2 = (y 2).val := by
  obtain ⟨uw, iw, sd, iv, wf⟩ := d
  dsimp only at hu hi
  subst hu hi
  unfold ScatterDims.window
  rw [dif_pos (by simp [ScatterDims.sKept, Shape.kept])]
  have e : ∀ q : Fin 3, q = 2 → (y q).val = (y 2).val := fun q hq => by subst hq; rfl
  exact e _ (by rfl)

/-- Update `j` lands on `i` exactly when its index word reads row `i 0` and its rectangle coordinates are `i`'s. -/
theorem scatter_rows3_iff {N A B n w : Nat} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (j : (⟨3, ![n, A, B]⟩ : Shape).Idx)
    (i : (⟨3, ![N, A, B]⟩ : Shape).Idx) :
    d.resultIdx? j idx = some i ↔
      (idx (ixP (n := n) (j 0))).toInt = ((i 0).val : Int) ∧ (j 1).val = (i 1).val ∧ (j 2).val = (i 2).val := by
  have hst0 := scatter_rows3_start d hu hs hv idx j
  have hw0 := scatter_rows3_window0 d hi j
  have hst1 := scatter_rows3_start_ne d hs idx j 1 (by decide)
  have hst2 := scatter_rows3_start_ne d hs idx j 2 (by decide)
  have hw1 := scatter_rows3_window1 d hu hi j
  have hw2 := scatter_rows3_window2 d hu hi j
  have hiN : (i 0).val < N := (i 0).isLt
  have hjA : (j 1).val < A := (j 1).isLt
  have hjB : (j 2).val < B := (j 2).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      have hi2 := congrArg Fin.val (congrFun (Option.some.inj h) 2)
      simp only [] at hi0 hi1 hi2
      refine ⟨?_, ?_, ?_⟩ <;> omega
    · exact absurd h (by simp)
  · rintro ⟨h0, h1, h2⟩
    have hall : ∀ a, 0 ≤ d.start j idx a + d.window j a ∧ d.start j idx a + d.window j a < (⟨3, ![N, A, B]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (A : Int)
        omega
      | ⟨2, _⟩ =>
        show 0 ≤ d.start j idx 2 + d.window j 2 ∧ d.start j idx 2 + d.window j 2 < (B : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega
    | ⟨2, _⟩ =>
      apply Fin.ext
      show (d.start j idx 2 + d.window j 2).toNat = (i 2).val
      omega

/-- The same for rows that are `A × B` rectangles. -/
theorem scatter_rows3_sum {M : Type} [AddCommMonoid M] {N A B n w : Nat}
    (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (upd : (⟨3, ![n, A, B]⟩ : Shape).Idx → M)
    (i : (⟨3, ![N, A, B]⟩ : Shape).Idx) :
    ∑ j ∈ Finset.univ.filter (fun j => d.resultIdx? j idx = some i), upd j
      = ∑ e ∈ Finset.univ.filter (fun e : Fin n => (idx (ixP e)).toInt = ((i 0).val : Int)), upd (ix3 e (i 1) (i 2)) := by
  have key := scatter_rows3_iff d hu hi hs hv idx
  have back : ∀ j : (⟨3, ![n, A, B]⟩ : Shape).Idx, (j 1).val = (i 1).val → (j 2).val = (i 2).val →
      ix3 (n0 := n) (n1 := A) (n2 := B) (j 0) (i 1) (i 2) = j := by
    intro j h1 h2
    funext b
    match b with
    | ⟨0, _⟩ => rfl
    | ⟨1, _⟩ => exact Fin.ext h1.symm
    | ⟨2, _⟩ => exact Fin.ext h2.symm
  refine Finset.sum_nbij' (fun j => (j 0 : Fin n)) (fun e => ix3 e (i 1) (i 2)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ix3 e (i 1) (i 2)) i).2 ⟨(Finset.mem_filter.mp he).2, rfl, rfl⟩⟩
  · intro j hj
    rw [Finset.mem_filter] at hj
    have hk := (key j i).1 hj.2
    exact back j hk.2.1 hk.2.2
  · intro e _
    rfl
  · intro j hj
    rw [Finset.mem_filter] at hj
    have hk := (key j i).1 hj.2
    show upd j = upd (ix3 (j 0) (i 1) (i 2))
    rw [back j hk.2.1 hk.2.2]

/-! ## The row gather from an `[N, A, B]` table -/

/-- The start of result `y`'s slice on the row axis is its start index, read signed and clamped into the table. -/
theorem gather_rows3_start {N A B n w : Nat} (d : GatherDims ⟨3, ![N, A, B]⟩ ⟨2, ![n, 1]⟩ ⟨3, ![n, A, B]⟩)
    (hoff : d.offsetDims = [1, 2]) (hcoll : d.collapsedSliceDims = [0])
    (hsim : d.startIndexMap = [0]) (hivd : d.indexVectorDim = 1)
    (idx : IVec ⟨2, ![n, 1]⟩ w) (y : (⟨3, ![n, A, B]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 3, q = 0 → (y q).val = (y 0).val := fun q hq => by subst hq; rfl
    exact e _ (by rfl)
  | ⟨1, _⟩ =>
    unfold GatherDims.siIdx
    rw [dif_pos (by simp)]
    apply Fin.ext
    show List.idxOf (0 : Fin 3) [0] = 0
    simp

/-- The first rectangle axis is kept: result `y`'s offset on it is its own coordinate. -/
theorem gather_rows3_off1 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 1 → (y q).val = (y 1).val := fun q hq => by subst hq; rfl
  exact e _ (by rfl)

/-- The second rectangle axis is kept: result `y`'s offset on it is its own coordinate. -/
theorem gather_rows3_off2 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 2 = (y 2).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 2 → (y q).val = (y 2).val := fun q hq => by subst hq; rfl
  exact e _ (by rfl)

/-- A row gather from a table of `A × B` rows read at `(e, a, b)`: row `idx[e]`, read signed and clamped into the
    table, at `(a, b)`. -/
theorem gather_rows3 {α : Type} {N A B n w : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![n, 1]⟩ w) (e : Fin n) (a : Fin A) (b : Fin B) (hN : 0 < N) :
    Host.gather d x idx (ix3 e a b) = x (ix3 ⟨min (idx (ixP e)).toInt.toNat (N - 1), by omega⟩ a b) := by
  unfold Host.gather
  congr 1
  funext c
  have hnb : ∀ c : Fin 3, c ∉ d.operandBatchingDims := fun c => by rw [hob]; exact List.not_mem_nil
  have hst0 : ∀ c : Fin 3, c ≠ 0 → d.start (ix3 e a b) idx c = 0 := fun c hc => by
    unfold GatherDims.start
    rw [dif_neg (by rw [hsim]; simpa using hc)]
  match c with
  | ⟨0, _⟩ =>
    apply Fin.ext
    have hb := d.batchCoord_eq_zero (ix3 e a b) 0 (hnb 0)
    have ho := d.offCoord_eq_zero (ix3 e a b) 0 (by rw [GatherDims.mem_sKept, hcoll]; simp)
    have hst : d.start (ix3 e a b) idx 0 = min (idx (ixP e)).toInt.toNat (N - 1) :=
      gather_rows3_start d hoff hcoll hsim hivd idx (ix3 e a b)
    show d.start (ix3 e a b) idx 0 + d.batchCoord (ix3 e a b) 0 + d.offCoord (ix3 e a b) 0 = min (idx (ixP e)).toInt.toNat (N - 1)
    omega
  | ⟨1, _⟩ =>
    apply Fin.ext
    have hb := d.batchCoord_eq_zero (ix3 e a b) 1 (hnb 1)
    have ho : d.offCoord (ix3 e a b) 1 = a.val := gather_rows3_off1 d hoff hcoll hob (ix3 e a b)
    have hst := hst0 1 (by decide)
    show d.start (ix3 e a b) idx 1 + d.batchCoord (ix3 e a b) 1 + d.offCoord (ix3 e a b) 1 = a.val
    omega
  | ⟨2, _⟩ =>
    apply Fin.ext
    have hb := d.batchCoord_eq_zero (ix3 e a b) 2 (hnb 2)
    have ho : d.offCoord (ix3 e a b) 2 = b.val := gather_rows3_off2 d hoff hcoll hob (ix3 e a b)
    have hst := hst0 2 (by decide)
    show d.start (ix3 e a b) idx 2 + d.batchCoord (ix3 e a b) 2 + d.offCoord (ix3 e a b) 2 = b.val
    omega

end Idealize.ShloMosaic.RowIndex
-- ==== Proof.PoolRef.lean ====
import proofs.«417690_j12515534701155_2_alg».proof.Proof.Gen.ReferenceIdeal.Read
import proofs.«417690_j12515534701155_2_alg».proof.Proof.Spec
import proofs.«417690_j12515534701155_2_alg».proof.Proof.LibRowSum

set_option maxRecDepth 16384

noncomputable section

open scoped BigOperators

namespace Cert.ReferenceIdeal.Bridge

open Cert.ReferenceIdeal Cert.ReferenceIdeal.Read
open Idealize.ShloMosaic Idealize.ShloMosaic.TcCoe Idealize.ShloMosaic.ValueIdx Idealize.ShloMosaic.StableHlo

/-- A 32-bit word read signed is a natural number `g` below `2 ^ 31` exactly when it is the word of `g`. -/
theorem toInt_eq_natCast_iff (w : BitVec 32) (g : Nat) (hg : g < 2147483648) :
    w.toInt = (g : Int) ↔ w = BitVec.ofNat 32 g := by
  have hw : w.toNat < 4294967296 := w.isLt
  have hmod : g % 2 ^ 32 = g := Nat.mod_eq_of_lt (by omega)
  rw [← BitVec.toNat_inj, BitVec.toNat_ofNat, hmod, BitVec.toInt_eq_toNat_cond]
  split <;> omega

variable (x0 : (⟨S100000x128, .f32⟩ : BufTy).Contents (Elt Ideal)) (x1 : (⟨S2x1200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x16, .f32⟩ : BufTy).Contents (Elt Ideal)) (x8 : (⟨S16, .f32⟩ : BufTy).Contents (Elt Ideal))

/-- The reference's scatter-add of the last node table by graph id is the pooled sum over 500 rows: an update lands
    on row `g` exactly when its id word, read signed, is `g`, which for `g < 500` says the word is the word of `g`;
    the table it adds into is zero. -/
theorem v127_eq : val_main_v127 (F := Ideal) x0 x1 x2 x3 x4 x5 x6 x7 x8
    = GcnSpec.poolSum (G := 500) (GcnSpec.idcol x2) (val_main_v124 (F := Ideal) x0 x1 x3 x4 x5 x6 x7 x8) := by
  funext i
  unfold val_main_v127
  -- the argument holds for every node table `h`
  generalize val_main_v124 (F := Ideal) x0 x1 x3 x4 x5 x6 x7 x8 = h
  -- on the extended reals the scatter-add is the table's element plus the sum of the updates that land on it
  show val_main_v125 (F := Ideal) i + ∑ j ∈ Finset.univ.filter
      (fun j => scatter_S500x16_S100000x1_S100000x16_1_0_0_1.resultIdx? j (val_main_v126 (F := Ideal) x2) = some i), h j = _
  -- the landing updates are those of column `i 1` whose index word reads row `i 0`
  rw [RowIndex.scatter_rows_sum scatter_S500x16_S100000x1_S100000x16_1_0_0_1 rfl rfl rfl rfl
    (val_main_v126 (F := Ideal) x2) h i]
  -- the table added into is the zero splat
  rw [val_main_v125_apply, val_main_cst_23_apply]
  show Ideal.ofBits .f32 0x00000000#32 + _ = _
  rw [Ideal.ofBits_zero_f32, zero_add]
  have hi : (i 0).val < 500 := (i 0).isLt
  unfold GcnSpec.poolSum
  refine Finset.sum_congr (Finset.filter_congr fun e _ => ?_) fun e _ => ?_
  · -- the index column at `(e, 0)` is the id word of node `e`, and `i 0 < 500 < 2 ^ 31`
    rw [val_main_v126_apply]
    have hidx : idx_main_v126 (Predicate.ixP e) = ix1 e := by
      funext a
      match a with
      | ⟨0, _⟩ => rfl
    rw [hidx]
    show (x2 (ix1 e)).toInt = ((i 0).val : Int) ↔ x2 (ix1 e) = BitVec.ofNat 32 (i 0).val
    exact toInt_eq_natCast_iff _ _ (by omega)
  · -- the two spellings of the index `(e, i 1)` agree
    have hij : Predicate.ij e (i 1) = ix2 e (i 1) := by
      funext a
      match a with
      | ⟨0, _⟩ => rfl
      | ⟨1, _⟩ => rfl
    exact congrArg h hij

end Cert.ReferenceIdeal.Bridge

end
-- ==== Proof.SpecLayout.lean ====
/-
  The layouts the kernel program gives the squared inverse-root degrees, a bias vector and the graph ids: a vector
  reshaped to a column `[N, 1]` or to a row `[1, C]` reads back as the vector, so the reshapes are the
  specification's `d2col`, `idcol` and `brow`.  Stated at abstract extents.
-/
import proofs.«417690_j12515534701155_2_alg».proof.Proof.Spec
import Idealize.ShloMosaic.Lib.Pipeline.Value
import Idealize.ShloMosaic.Lib.ValueLayout

noncomputable section

namespace GcnSpec

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The column of squares is the reshape of the pointwise square. -/
theorem d2col_eq {N : ℕ} (D : (⟨1, ![N]⟩ : Shape).Idx → EReal) (h : (⟨1, ![N]⟩ : Shape).ShapeCasts ⟨2, ![N, 1]⟩) :
    shapeCast ⟨2, ![N, 1]⟩ (mulf (F := Ideal) (φ := .f32) D D) h = d2col D := by
  funext i
  obtain ⟨p, u, rfl⟩ : ∃ (p : Fin N) (u : Fin 1), i = ix2 p u := ⟨i 0, i 1, eq_ix2 i⟩
  rw [shapeCast_a_a1_apply]
  rfl

/-- The column of ids is the reshape of the id vector. -/
theorem idcol_eq {N : ℕ} (ids : (⟨1, ![N]⟩ : Shape).Idx → BitVec 32)
    (h : (⟨1, ![N]⟩ : Shape).ShapeCasts ⟨2, ![N, 1]⟩) : shapeCast ⟨2, ![N, 1]⟩ ids h = idcol ids := by
  funext i
  obtain ⟨p, u, rfl⟩ : ∃ (p : Fin N) (u : Fin 1), i = ix2 p u := ⟨i 0, i 1, eq_ix2 i⟩
  rw [shapeCast_a_a1_apply]
  rfl

/-- The bias row is the reshape of the bias vector. -/
theorem brow_eq {C : ℕ} (b : (⟨1, ![C]⟩ : Shape).Idx → EReal) (h : (⟨1, ![C]⟩ : Shape).ShapeCasts ⟨2, ![1, C]⟩) :
    shapeCast ⟨2, ![1, C]⟩ b h = brow b := by
  funext i
  obtain ⟨u, q, rfl⟩ : ∃ (u : Fin 1) (q : Fin C), i = ix2 u q := ⟨i 0, i 1, eq_ix2 i⟩
  rw [shapeCast_a_1a_apply]
  rfl

end GcnSpec

end
-- ==== Proof.PoolSlice.lean ====
/-
  The first rows of a pooled table are the pooled table with fewer rows: row `g` of `poolSum` depends on the
  number of rows only through `g` itself.
-/
import proofs.«417690_j12515534701155_2_alg».proof.Proof.Spec
import Idealize.ShloMosaic.Lib.Pipeline.Value

noncomputable section

open scoped BigOperators

namespace GcnSpec

open Idealize.ShloMosaic Idealize.ShloMosaic.ValueIdx

/-- Slicing rows `0 … G' - 1` (all columns) out of the `G`-row pooled table gives the `G'`-row pooled table. -/
theorem slice_poolSum {N G G' C : Nat} (hs : (⟨2, ![G, C]⟩ : Shape).Slices ![0, 0] ⟨2, ![G', C]⟩)
    (ids : (⟨2, ![N, 1]⟩ : Shape).Idx → BitVec 32) (h : (⟨2, ![N, C]⟩ : Shape).Idx → EReal) :
    extractStridedSlice ⟨2, ![G', C]⟩ ![0, 0] (poolSum (G := G) ids h) hs = poolSum (G := G') ids h := by
  funext j
  -- the slice's row count is at most the table's: the extent condition on axis 0, at offset zero
  have hG : G' ≤ G := by
    have h0 := hs.2 (0 : Fin 2)
    have h1 : (0 : Nat) + G' ≤ G := h0
    omega
  have hj : (j 0).val < G := lt_of_lt_of_le (idx2_lt0 j) hG
  -- the slice at `(g, q)` reads the table at the same two coordinates
  rw [extractStridedSlice_apply ![0, 0] (poolSum (G := G) ids h) hs j (ix2 ⟨(j 0).val, hj⟩ (j 1))
    (fun a => match a with
      | ⟨0, _⟩ => by show (j 0).val = 0 + (j 0).val; omega
      | ⟨1, _⟩ => by show (j 1).val = 0 + (j 1).val; omega)]
  -- and row `g` of either table is the same filtered sum: it mentions the row only through `g`'s value
  rfl

end GcnSpec

end
-- ==== Proof.KernelValue.lean ====
/-
  The idealized kernel program's result, boundary by boundary.

  The program is seven pipelined regions among stretches of host operations.  At each boundary the buffers that the
  rest of the program reads are named as functions of the nine argument arrays — the same functions the reference
  program computes, stage by stage:

  * before the first region the host computes the edge endpoints, the inverse-root degrees and their squares (a
    column);
  * each layer is a matrix-product region (the node table times the weights), a host stretch that aggregates the
    products along the edges (gather, scale, scatter-add: the very operations the reference applies), and a
    node-update region; the exit array of the update is the reference's layer output;
  * the pooling region sums the last node table's rows by graph id into a 512-row table, of which the host keeps the
    first 500 rows and divides each by its graph's clamped node count, as the reference does.
-/
import proofs.«417690_j12515534701155_2_alg».proof.Proof.Gen.KernelIdeal.Frame
import proofs.«417690_j12515534701155_2_alg».proof.Proof.Gen.ReferenceIdeal.Read
import proofs.«417690_j12515534701155_2_alg».proof.Proof.Spec
import proofs.«417690_j12515534701155_2_alg».proof.Proof.RegMM
import proofs.«417690_j12515534701155_2_alg».proof.Proof.RegComb
import proofs.«417690_j12515534701155_2_alg».proof.Proof.RegPool
import proofs.«417690_j12515534701155_2_alg».proof.Proof.RefBridge
import proofs.«417690_j12515534701155_2_alg».proof.Proof.PoolRef
import proofs.«417690_j12515534701155_2_alg».proof.Proof.SpecLayout
import proofs.«417690_j12515534701155_2_alg».proof.Proof.PoolSlice
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.KV

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v11 val_main_v12 val_main_v40 val_main_v49 val_main_v50 val_main_v78 val_main_v87 val_main_v88 val_main_v116 val_main_v124 val_main_v127 val_main_v134 val_main_v135 val_main_v131 val_main_v132)
open Cert.ReferenceIdeal.Bridge (v12_eq v50_eq v88_eq v49_eq v87_eq v124_eq v127_eq)
open Cert.KernelIdeal.Reg (final0 final2 final4 final6)
open Cert.KernelIdeal.RegComb (final1 final3 final5)

variable (m : (ℓ : Loc nD τ sig) → Buf (Elt Ideal) ℓ) (ρ : Dev nD → PrngReg)

/-! ## The argument arrays as launched -/

abbrev x0 (c : Dev nD) : S100000x128.Idx → EReal := m ((c : Thread nD τ).loc main_arg0)
abbrev x1 (c : Dev nD) : S2x1200000.Idx → BitVec 32 := m ((c : Thread nD τ).loc main_arg1)
abbrev x2 (c : Dev nD) : S100000.Idx → BitVec 32 := m ((c : Thread nD τ).loc main_arg2)
abbrev x3 (c : Dev nD) : S128x64.Idx → EReal := m ((c : Thread nD τ).loc main_arg3)
abbrev x4 (c : Dev nD) : S64.Idx → EReal := m ((c : Thread nD τ).loc main_arg4)
abbrev x5 (c : Dev nD) : S64x64.Idx → EReal := m ((c : Thread nD τ).loc main_arg5)
abbrev x6 (c : Dev nD) : S64.Idx → EReal := m ((c : Thread nD τ).loc main_arg6)
abbrev x7 (c : Dev nD) : S64x16.Idx → EReal := m ((c : Thread nD τ).loc main_arg7)
abbrev x8 (c : Dev nD) : S16.Idx → EReal := m ((c : Thread nD τ).loc main_arg8)

/-! ## Before the first region: the edge endpoints, the inverse-root degrees, their squares -/

theorem W1_v1 (c : Dev nD) : W1 m ρ c (Proc.devRef .tc main_v1) = val_main_v1 (F := Ideal) (x1 m c) := by
  show StableHlo.after hostOps0 (W0 m ρ c) (Proc.devRef .tc main_v1) = _
  after_results
  rfl

theorem W1_v3 (c : Dev nD) : W1 m ρ c (Proc.devRef .tc main_v3) = val_main_v3 (F := Ideal) (x1 m c) := by
  show StableHlo.after hostOps0 (W0 m ρ c) (Proc.devRef .tc main_v3) = _
  after_results
  rfl

theorem W1_v11 (c : Dev nD) : W1 m ρ c (Proc.devRef .tc main_v11) = val_main_v11 (F := Ideal) (x1 m c) := by
  show StableHlo.after hostOps0 (W0 m ρ c) (Proc.devRef .tc main_v11) = _
  after_results
  rfl

/-- The squares' column is the reshape of `dis * dis`. -/
theorem W1_v13 (c : Dev nD) :
    W1 m ρ c (Proc.devRef .tc main_v13) = GcnSpec.d2col (val_main_v11 (F := Ideal) (x1 m c)) := by
  show StableHlo.after hostOps0 (W0 m ρ c) (Proc.devRef .tc main_v13) = _
  after_results
  generalize hD : Host.powf (F := Ideal) (φ := .f32) (s := S100000) _ _ = D
  have hv : val_main_v11 (F := Ideal) (x1 m c) = D := Eq.trans rfl hD
  rw [hv]
  clear hv hD
  exact GcnSpec.d2col_eq D shapeCasts_S100000_S100000x1

theorem W1_arg0 (c : Dev nD) : W1 m ρ c (Proc.devRef .tc main_arg0) = x0 m c := by
  show StableHlo.after hostOps0 (W0 m ρ c) _ = _; after_results
theorem W1_arg2 (c : Dev nD) : W1 m ρ c (Proc.devRef .tc main_arg2) = x2 m c := by
  show StableHlo.after hostOps0 (W0 m ρ c) _ = _; after_results
theorem W1_arg3 (c : Dev nD) : W1 m ρ c (Proc.devRef .tc main_arg3) = x3 m c := by
  show StableHlo.after hostOps0 (W0 m ρ c) _ = _; after_results
theorem W1_arg4 (c : Dev nD) : W1 m ρ c (Proc.devRef .tc main_arg4) = x4 m c := by
  show StableHlo.after hostOps0 (W0 m ρ c) _ = _; after_results
theorem W1_arg5 (c : Dev nD) : W1 m ρ c (Proc.devRef .tc main_arg5) = x5 m c := by
  show StableHlo.after hostOps0 (W0 m ρ c) _ = _; after_results
theorem W1_arg6 (c : Dev nD) : W1 m ρ c (Proc.devRef .tc main_arg6) = x6 m c := by
  show StableHlo.after hostOps0 (W0 m ρ c) _ = _; after_results
theorem W1_arg7 (c : Dev nD) : W1 m ρ c (Proc.devRef .tc main_arg7) = x7 m c := by
  show StableHlo.after hostOps0 (W0 m ρ c) _ = _; after_results
theorem W1_arg8 (c : Dev nD) : W1 m ρ c (Proc.devRef .tc main_arg8) = x8 m c := by
  show StableHlo.after hostOps0 (W0 m ρ c) _ = _; after_results

/-! ## Layer 1: the product, the aggregation, the node update -/

theorem W2_v14 (c : Dev nD) :
    W2 m ρ c (Proc.devRef .tc main_v14) = val_main_v12 (F := Ideal) (x0 m c) (x3 m c) := by
  refine (W2_arr m ρ c 2).trans ((final0 (V1 m ρ) c).trans ?_)
  show GcnSpec.mm (W1 m ρ c (Proc.devRef .tc main_arg0)) (W1 m ρ c (Proc.devRef .tc main_arg3)) = _
  rw [W1_arg0 m ρ c, W1_arg3 m ρ c]
  exact (v12_eq (x0 m c) (x3 m c)).symm

theorem W2_v1 (c : Dev nD) : W2 m ρ c (Proc.devRef .tc main_v1) = val_main_v1 (F := Ideal) (x1 m c) :=
  (W2_of_ne m ρ c main_v1 (by decide)).trans (W1_v1 m ρ c)
theorem W2_v3 (c : Dev nD) : W2 m ρ c (Proc.devRef .tc main_v3) = val_main_v3 (F := Ideal) (x1 m c) :=
  (W2_of_ne m ρ c main_v3 (by decide)).trans (W1_v3 m ρ c)
theorem W2_v11 (c : Dev nD) : W2 m ρ c (Proc.devRef .tc main_v11) = val_main_v11 (F := Ideal) (x1 m c) :=
  (W2_of_ne m ρ c main_v11 (by decide)).trans (W1_v11 m ρ c)
theorem W2_v13 (c : Dev nD) :
    W2 m ρ c (Proc.devRef .tc main_v13) = GcnSpec.d2col (val_main_v11 (F := Ideal) (x1 m c)) :=
  (W2_of_ne m ρ c main_v13 (by decide)).trans (W1_v13 m ρ c)
theorem W2_arg4 (c : Dev nD) : W2 m ρ c (Proc.devRef .tc main_arg4) = x4 m c :=
  (W2_of_ne m ρ c main_arg4 (by decide)).trans (W1_arg4 m ρ c)

/-- The aggregate of the first layer's products along the edges is the reference's: the host applies the same
    gather, scaling and scatter-add to the same product table, endpoints and inverse-root degrees. -/
theorem W3_v42 (c : Dev nD) :
    W3 m ρ c (Proc.devRef .tc main_v42) = val_main_v40 (F := Ideal) (x0 m c) (x1 m c) (x3 m c) := by
  show StableHlo.after hostOps1 (W2 m ρ c) (Proc.devRef .tc main_v42) = _
  after_results_simp
  rw [W2_v1 m ρ c, W2_v3 m ρ c, W2_v11 m ρ c, W2_v14 m ρ c]
  rfl

theorem W3_v43 (c : Dev nD) : W3 m ρ c (Proc.devRef .tc main_v43) = GcnSpec.brow (x4 m c) := by
  show StableHlo.after hostOps1 (W2 m ρ c) (Proc.devRef .tc main_v43) = _
  after_results
  rw [W2_arg4 m ρ c]
  exact GcnSpec.brow_eq (x4 m c) shapeCasts_S64_S1x64

theorem W3_v14 (c : Dev nD) :
    W3 m ρ c (Proc.devRef .tc main_v14) = val_main_v12 (F := Ideal) (x0 m c) (x3 m c) :=
  (by show StableHlo.after hostOps1 (W2 m ρ c) _ = _; after_results :
    W3 m ρ c (Proc.devRef .tc main_v14) = W2 m ρ c (Proc.devRef .tc main_v14)).trans (W2_v14 m ρ c)
theorem W3_v13 (c : Dev nD) :
    W3 m ρ c (Proc.devRef .tc main_v13) = GcnSpec.d2col (val_main_v11 (F := Ideal) (x1 m c)) :=
  (by show StableHlo.after hostOps1 (W2 m ρ c) _ = _; after_results :
    W3 m ρ c (Proc.devRef .tc main_v13) = W2 m ρ c (Proc.devRef .tc main_v13)).trans (W2_v13 m ρ c)

theorem W4_v44 (c : Dev nD) :
    W4 m ρ c (Proc.devRef .tc main_v44) = val_main_v49 (F := Ideal) (x0 m c) (x1 m c) (x3 m c) (x4 m c) := by
  refine (W4_arr m ρ c 4).trans ((final1 (V3 m ρ) c).trans ?_)
  show GcnSpec.combRelu (W3 m ρ c (Proc.devRef .tc main_v14)) (W3 m ρ c (Proc.devRef .tc main_v13))
      (W3 m ρ c (Proc.devRef .tc main_v42)) (W3 m ρ c (Proc.devRef .tc main_v43)) = _
  rw [W3_v14 m ρ c, W3_v13 m ρ c, W3_v42 m ρ c, W3_v43 m ρ c]
  exact (v49_eq (x0 m c) (x1 m c) (x3 m c) (x4 m c)).symm

/-! ## Layer 2 -/

theorem W4_arg5 (c : Dev nD) : W4 m ρ c (Proc.devRef .tc main_arg5) = x5 m c :=
  (W4_of_ne m ρ c main_arg5 (by decide)).trans
    ((by show StableHlo.after hostOps1 (W2 m ρ c) _ = _; after_results :
      W3 m ρ c (Proc.devRef .tc main_arg5) = W2 m ρ c (Proc.devRef .tc main_arg5)).trans
      ((W2_of_ne m ρ c main_arg5 (by decide)).trans (W1_arg5 m ρ c)))

theorem W5_v45 (c : Dev nD) :
    W5 m ρ c (Proc.devRef .tc main_v45)
      = val_main_v50 (F := Ideal) (x0 m c) (x1 m c) (x3 m c) (x4 m c) (x5 m c) := by
  refine (W5_arr m ρ c 2).trans ((final2 (V4 m ρ) c).trans ?_)
  show GcnSpec.mm (W4 m ρ c (Proc.devRef .tc main_v44)) (W4 m ρ c (Proc.devRef .tc main_arg5)) = _
  rw [W4_v44 m ρ c, W4_arg5 m ρ c]
  exact (v50_eq (x0 m c) (x1 m c) (x3 m c) (x4 m c) (x5 m c)).symm

/-- What the first layer leaves untouched, at the second layer's host stretch. -/
theorem W5_of_W2 (c : Dev nD) (b : Ref sig .tc) (h1 : ∀ w, Pipeline.arrRef spec1 w ≠ b) (h2 : ∀ w, Pipeline.arrRef spec2 w ≠ b)
    (h : W3 m ρ c (Proc.devRef .tc b) = W2 m ρ c (Proc.devRef .tc b)) :
    W5 m ρ c (Proc.devRef .tc b) = W2 m ρ c (Proc.devRef .tc b) :=
  (W5_of_ne m ρ c b h2).trans ((W4_of_ne m ρ c b h1).trans h)

theorem W5_v1 (c : Dev nD) : W5 m ρ c (Proc.devRef .tc main_v1) = val_main_v1 (F := Ideal) (x1 m c) :=
  (W5_of_W2 m ρ c main_v1 (by decide) (by decide)
    (by show StableHlo.after hostOps1 (W2 m ρ c) _ = _; after_results)).trans (W2_v1 m ρ c)
theorem W5_v3 (c : Dev nD) : W5 m ρ c (Proc.devRef .tc main_v3) = val_main_v3 (F := Ideal) (x1 m c) :=
  (W5_of_W2 m ρ c main_v3 (by decide) (by decide)
    (by show StableHlo.after hostOps1 (W2 m ρ c) _ = _; after_results)).trans (W2_v3 m ρ c)
theorem W5_v11 (c : Dev nD) : W5 m ρ c (Proc.devRef .tc main_v11) = val_main_v11 (F := Ideal) (x1 m c) :=
  (W5_of_W2 m ρ c main_v11 (by decide) (by decide)
    (by show StableHlo.after hostOps1 (W2 m ρ c) _ = _; after_results)).trans (W2_v11 m ρ c)
/-- The squares' column is an input window of the node update: the region leaves it as it found it. -/
theorem W4_v13 (c : Dev nD) :
    W4 m ρ c (Proc.devRef .tc main_v13) = GcnSpec.d2col (val_main_v11 (F := Ideal) (x1 m c)) :=
  ((W4_arr m ρ c 1).trans (((dat1 (V3 m ρ) c).arrAt_in 1 rfl _).trans (A_eq1 (V3 m ρ) c 1))).trans (W3_v13 m ρ c)
theorem W5_v13 (c : Dev nD) :
    W5 m ρ c (Proc.devRef .tc main_v13) = GcnSpec.d2col (val_main_v11 (F := Ideal) (x1 m c)) :=
  (W5_of_ne m ρ c main_v13 (by decide)).trans (W4_v13 m ρ c)
theorem W5_arg6 (c : Dev nD) : W5 m ρ c (Proc.devRef .tc main_arg6) = x6 m c :=
  (W5_of_W2 m ρ c main_arg6 (by decide) (by decide)
    (by show StableHlo.after hostOps1 (W2 m ρ c) _ = _; after_results)).trans
    ((W2_of_ne m ρ c main_arg6 (by decide)).trans (W1_arg6 m ρ c))
theorem W5_arg7 (c : Dev nD) : W5 m ρ c (Proc.devRef .tc main_arg7) = x7 m c :=
  (W5_of_W2 m ρ c main_arg7 (by decide) (by decide)
    (by show StableHlo.after hostOps1 (W2 m ρ c) _ = _; after_results)).trans
    ((W2_of_ne m ρ c main_arg7 (by decide)).trans (W1_arg7 m ρ c))
theorem W5_arg8 (c : Dev nD) : W5 m ρ c (Proc.devRef .tc main_arg8) = x8 m c :=
  (W5_of_W2 m ρ c main_arg8 (by decide) (by decide)
    (by show StableHlo.after hostOps1 (W2 m ρ c) _ = _; after_results)).trans
    ((W2_of_ne m ρ c main_arg8 (by decide)).trans (W1_arg8 m ρ c))
theorem W5_arg2 (c : Dev nD) : W5 m ρ c (Proc.devRef .tc main_arg2) = x2 m c :=
  (W5_of_W2 m ρ c main_arg2 (by decide) (by decide)
    (by show StableHlo.after hostOps1 (W2 m ρ c) _ = _; after_results)).trans
    ((W2_of_ne m ρ c main_arg2 (by decide)).trans (W1_arg2 m ρ c))

theorem W6_v73 (c : Dev nD) :
    W6 m ρ c (Proc.devRef .tc main_v73)
      = val_main_v78 (F := Ideal) (x0 m c) (x1 m c) (x3 m c) (x4 m c) (x5 m c) := by
  show StableHlo.after hostOps3 (W5 m ρ c) (Proc.devRef .tc main_v73) = _
  after_results_simp
  rw [W5_v1 m ρ c, W5_v3 m ρ c, W5_v11 m ρ c, W5_v45 m ρ c]
  rfl

theorem W6_v74 (c : Dev nD) : W6 m ρ c (Proc.devRef .tc main_v74) = GcnSpec.brow (x6 m c) := by
  show StableHlo.after hostOps3 (W5 m ρ c) (Proc.devRef .tc main_v74) = _
  after_results
  rw [W5_arg6 m ρ c]
  exact GcnSpec.brow_eq (x6 m c) shapeCasts_S64_S1x64

theorem W6_v45 (c : Dev nD) :
    W6 m ρ c (Proc.devRef .tc main_v45)
      = val_main_v50 (F := Ideal) (x0 m c) (x1 m c) (x3 m c) (x4 m c) (x5 m c) :=
  (by show StableHlo.after hostOps3 (W5 m ρ c) _ = _; after_results :
    W6 m ρ c (Proc.devRef .tc main_v45) = W5 m ρ c (Proc.devRef .tc main_v45)).trans (W5_v45 m ρ c)
theorem W6_v13 (c : Dev nD) :
    W6 m ρ c (Proc.devRef .tc main_v13) = GcnSpec.d2col (val_main_v11 (F := Ideal) (x1 m c)) :=
  (by show StableHlo.after hostOps3 (W5 m ρ c) _ = _; after_results :
    W6 m ρ c (Proc.devRef .tc main_v13) = W5 m ρ c (Proc.devRef .tc main_v13)).trans (W5_v13 m ρ c)

theorem W7_v75 (c : Dev nD) :
    W7 m ρ c (Proc.devRef .tc main_v75)
      = val_main_v87 (F := Ideal) (x0 m c) (x1 m c) (x3 m c) (x4 m c) (x5 m c) (x6 m c) := by
  refine (W7_arr m ρ c 4).trans ((final3 (V6 m ρ) c).trans ?_)
  show GcnSpec.combRelu (W6 m ρ c (Proc.devRef .tc main_v45)) (W6 m ρ c (Proc.devRef .tc main_v13))
      (W6 m ρ c (Proc.devRef .tc main_v73)) (W6 m ρ c (Proc.devRef .tc main_v74)) = _
  rw [W6_v45 m ρ c, W6_v13 m ρ c, W6_v73 m ρ c, W6_v74 m ρ c]
  exact (v87_eq (x0 m c) (x1 m c) (x3 m c) (x4 m c) (x5 m c) (x6 m c)).symm

/-! ## Layer 3 -/

/-- What the second layer leaves untouched, at the third layer's host stretch. -/
theorem W8_of_W5 (c : Dev nD) (b : Ref sig .tc) (h3 : ∀ w, Pipeline.arrRef spec3 w ≠ b) (h4 : ∀ w, Pipeline.arrRef spec4 w ≠ b)
    (h : W6 m ρ c (Proc.devRef .tc b) = W5 m ρ c (Proc.devRef .tc b)) :
    W8 m ρ c (Proc.devRef .tc b) = W5 m ρ c (Proc.devRef .tc b) :=
  (W8_of_ne m ρ c b h4).trans ((W7_of_ne m ρ c b h3).trans h)

theorem W7_arg7 (c : Dev nD) : W7 m ρ c (Proc.devRef .tc main_arg7) = x7 m c :=
  (W7_of_ne m ρ c main_arg7 (by decide)).trans
    ((by show StableHlo.after hostOps3 (W5 m ρ c) _ = _; after_results :
      W6 m ρ c (Proc.devRef .tc main_arg7) = W5 m ρ c (Proc.devRef .tc main_arg7)).trans (W5_arg7 m ρ c))

theorem W8_v76 (c : Dev nD) :
    W8 m ρ c (Proc.devRef .tc main_v76)
      = val_main_v88 (F := Ideal) (x0 m c) (x1 m c) (x3 m c) (x4 m c) (x5 m c) (x6 m c) (x7 m c) := by
  refine (W8_arr m ρ c 2).trans ((final4 (V7 m ρ) c).trans ?_)
  show GcnSpec.mm (W7 m ρ c (Proc.devRef .tc main_v75)) (W7 m ρ c (Proc.devRef .tc main_arg7)) = _
  rw [W7_v75 m ρ c, W7_arg7 m ρ c]
  exact (v88_eq (x0 m c) (x1 m c) (x3 m c) (x4 m c) (x5 m c) (x6 m c) (x7 m c)).symm

theorem W8_v1 (c : Dev nD) : W8 m ρ c (Proc.devRef .tc main_v1) = val_main_v1 (F := Ideal) (x1 m c) :=
  (W8_of_W5 m ρ c main_v1 (by decide) (by decide)
    (by show StableHlo.after hostOps3 (W5 m ρ c) _ = _; after_results)).trans (W5_v1 m ρ c)
theorem W8_v3 (c : Dev nD) : W8 m ρ c (Proc.devRef .tc main_v3) = val_main_v3 (F := Ideal) (x1 m c) :=
  (W8_of_W5 m ρ c main_v3 (by decide) (by decide)
    (by show StableHlo.after hostOps3 (W5 m ρ c) _ = _; after_results)).trans (W5_v3 m ρ c)
theorem W8_v11 (c : Dev nD) : W8 m ρ c (Proc.devRef .tc main_v11) = val_main_v11 (F := Ideal) (x1 m c) :=
  (W8_of_W5 m ρ c main_v11 (by decide) (by decide)
    (by show StableHlo.after hostOps3 (W5 m ρ c) _ = _; after_results)).trans (W5_v11 m ρ c)
theorem W7_v13 (c : Dev nD) :
    W7 m ρ c (Proc.devRef .tc main_v13) = GcnSpec.d2col (val_main_v11 (F := Ideal) (x1 m c)) :=
  ((W7_arr m ρ c 1).trans (((dat3 (V6 m ρ) c).arrAt_in 1 rfl _).trans (A_eq3 (V6 m ρ) c 1))).trans (W6_v13 m ρ c)
theorem W8_v13 (c : Dev nD) :
    W8 m ρ c (Proc.devRef .tc main_v13) = GcnSpec.d2col (val_main_v11 (F := Ideal) (x1 m c)) :=
  (W8_of_ne m ρ c main_v13 (by decide)).trans (W7_v13 m ρ c)
theorem W8_arg8 (c : Dev nD) : W8 m ρ c (Proc.devRef .tc main_arg8) = x8 m c :=
  (W8_of_W5 m ρ c main_arg8 (by decide) (by decide)
    (by show StableHlo.after hostOps3 (W5 m ρ c) _ = _; after_results)).trans (W5_arg8 m ρ c)
theorem W8_arg2 (c : Dev nD) : W8 m ρ c (Proc.devRef .tc main_arg2) = x2 m c :=
  (W8_of_W5 m ρ c main_arg2 (by decide) (by decide)
    (by show StableHlo.after hostOps3 (W5 m ρ c) _ = _; after_results)).trans (W5_arg2 m ρ c)

theorem W9_v104 (c : Dev nD) :
    W9 m ρ c (Proc.devRef .tc main_v104)
      = val_main_v116 (F := Ideal) (x0 m c) (x1 m c) (x3 m c) (x4 m c) (x5 m c) (x6 m c) (x7 m c) := by
  show StableHlo.after hostOps5 (W8 m ρ c) (Proc.devRef .tc main_v104) = _
  after_results_simp
  rw [W8_v1 m ρ c, W8_v3 m ρ c, W8_v11 m ρ c, W8_v76 m ρ c]
  rfl

theorem W9_v105 (c : Dev nD) : W9 m ρ c (Proc.devRef .tc main_v105) = GcnSpec.brow (x8 m c) := by
  show StableHlo.after hostOps5 (W8 m ρ c) (Proc.devRef .tc main_v105) = _
  after_results
  rw [W8_arg8 m ρ c]
  exact GcnSpec.brow_eq (x8 m c) shapeCasts_S16_S1x16

theorem W9_v76 (c : Dev nD) :
    W9 m ρ c (Proc.devRef .tc main_v76)
      = val_main_v88 (F := Ideal) (x0 m c) (x1 m c) (x3 m c) (x4 m c) (x5 m c) (x6 m c) (x7 m c) :=
  (by show StableHlo.after hostOps5 (W8 m ρ c) _ = _; after_results :
    W9 m ρ c (Proc.devRef .tc main_v76) = W8 m ρ c (Proc.devRef .tc main_v76)).trans (W8_v76 m ρ c)
theorem W9_v13 (c : Dev nD) :
    W9 m ρ c (Proc.devRef .tc main_v13) = GcnSpec.d2col (val_main_v11 (F := Ideal) (x1 m c)) :=
  (by show StableHlo.after hostOps5 (W8 m ρ c) _ = _; after_results :
    W9 m ρ c (Proc.devRef .tc main_v13) = W8 m ρ c (Proc.devRef .tc main_v13)).trans (W8_v13 m ρ c)

theorem W10_v106 (c : Dev nD) :
    W10 m ρ c (Proc.devRef .tc main_v106)
      = val_main_v124 (F := Ideal) (x0 m c) (x1 m c) (x3 m c) (x4 m c) (x5 m c) (x6 m c) (x7 m c) (x8 m c) := by
  refine (W10_arr m ρ c 4).trans ((final5 (V9 m ρ) c).trans ?_)
  show GcnSpec.combLin (W9 m ρ c (Proc.devRef .tc main_v76)) (W9 m ρ c (Proc.devRef .tc main_v13))
      (W9 m ρ c (Proc.devRef .tc main_v104)) (W9 m ρ c (Proc.devRef .tc main_v105)) = _
  rw [W9_v76 m ρ c, W9_v13 m ρ c, W9_v104 m ρ c, W9_v105 m ρ c]
  exact (v124_eq (x0 m c) (x1 m c) (x3 m c) (x4 m c) (x5 m c) (x6 m c) (x7 m c) (x8 m c)).symm

/-! ## The pooling and the division by the clamped node counts -/

theorem W10_arg2 (c : Dev nD) : W10 m ρ c (Proc.devRef .tc main_arg2) = x2 m c :=
  (W10_of_ne m ρ c main_arg2 (by decide)).trans
    ((by show StableHlo.after hostOps5 (W8 m ρ c) _ = _; after_results :
      W9 m ρ c (Proc.devRef .tc main_arg2) = W8 m ρ c (Proc.devRef .tc main_arg2)).trans (W8_arg2 m ρ c))

/-- The graph ids as the pooling region finds them: a column. -/
theorem W11_v107 (c : Dev nD) : W11 m ρ c (Proc.devRef .tc main_v107) = GcnSpec.idcol (x2 m c) := by
  show StableHlo.after hostOps6 (W10 m ρ c) (Proc.devRef .tc main_v107) = _
  after_results
  rw [W10_arg2 m ρ c]
  exact GcnSpec.idcol_eq (x2 m c) shapeCasts_S100000_S100000x1

theorem W11_v106 (c : Dev nD) :
    W11 m ρ c (Proc.devRef .tc main_v106) = val_main_v124 (F := Ideal) (x0 m c) (x1 m c) (x3 m c) (x4 m c) (x5 m c) (x6 m c) (x7 m c) (x8 m c) :=
  (by show StableHlo.after hostOps6 (W10 m ρ c) _ = _; after_results :
    W11 m ρ c (Proc.devRef .tc main_v106) = W10 m ρ c (Proc.devRef .tc main_v106)).trans (W10_v106 m ρ c)

theorem W12_v108 (c : Dev nD) :
    W12 m ρ c (Proc.devRef .tc main_v108)
      = GcnSpec.poolSum (G := 512) (GcnSpec.idcol (x2 m c)) (val_main_v124 (F := Ideal) (x0 m c) (x1 m c) (x3 m c) (x4 m c) (x5 m c) (x6 m c) (x7 m c) (x8 m c)) := by
  refine (W12_arr m ρ c 2).trans ((final6 (V11 m ρ) c).trans ?_)
  show GcnSpec.poolSum (G := 512) (W11 m ρ c (Proc.devRef .tc main_v107)) (W11 m ρ c (Proc.devRef .tc main_v106)) = _
  rw [W11_v107 m ρ c, W11_v106 m ρ c]

theorem W12_arg2 (c : Dev nD) : W12 m ρ c (Proc.devRef .tc main_arg2) = x2 m c :=
  (W12_of_ne m ρ c main_arg2 (by decide)).trans
    ((by show StableHlo.after hostOps6 (W10 m ρ c) _ = _; after_results :
      W11 m ρ c (Proc.devRef .tc main_arg2) = W10 m ρ c (Proc.devRef .tc main_arg2)).trans (W10_arg2 m ρ c))

/-- THE RESULT: the last boundary's contents of the result buffer are the reference's result, as functions of
    the argument arrays.  The numerator is the first 500 rows of the pooled table, which are the reference's
    scatter-add of the node table by graph id; the denominator is the same host text on both sides (the node counts
    by the same scatter-add of ones, clamped at one from below, broadcast along the rows). -/
theorem result_eq (c : Dev nD) :
    W15 m ρ c (Proc.devRef .tc main_v117) = val_main_v135 (F := Ideal) (x0 m c) (x1 m c) (x2 m c) (x3 m c) (x4 m c) (x5 m c) (x6 m c) (x7 m c) (x8 m c) := by
  show StableHlo.after hostOps7_2 (W14 m ρ c) (Proc.devRef .tc main_v117) = _
  after_results
  rw [W12_v108 m ρ c, W12_arg2 m ρ c, GcnSpec.slice_poolSum, ← v127_eq (x0 m c) (x1 m c) (x2 m c) (x3 m c) (x4 m c) (x5 m c) (x6 m c) (x7 m c) (x8 m c)]
  rfl

end Cert.KernelIdeal.KV

end
-- ==== Proof.lean ====
/-
  The certificate of a three-layer graph convolution with mean pooling, written as seven pipelined regions among
  host operations, against its plain reference.

  Both programs compute, on the extended reals, the same function of the nine argument arrays.  Each layer multiplies
  the node table by its weights, aggregates the products along the edges with the symmetric degree normalisation
  (a gather, a scaling and a scatter-add which the two programs share operation for operation), adds each node's
  own product scaled by its squared inverse-root degree and the bias, and (in the first two layers) clamps at zero.
  The pooling sums the last node table's rows by graph id — in the kernel as a product with a one-hot matrix,
  accumulated over twenty blocks of nodes into a 512-row table of which 500 rows are kept; in the reference as a
  scatter-add into 500 rows — and divides by the clamped node counts.  A product with a zero-or-one factor is the
  other factor or zero on every extended real, and an id word selects row `g` in either program exactly when it is
  the word of `g`, so no finiteness of the inputs is used.

  The three frames are the generated ones (the reference's is its generated run with the result dropped); the
  idealization rewrote nothing, so `preserves` is trivial; `algebraic` pairs the kernel program's run, with its
  result named boundary by boundary (Proof/KernelValue.lean), with the reference's generated run.
-/
import proofs.«417690_j12515534701155_2_alg».proof.Defs
import proofs.«417690_j12515534701155_2_alg».proof.Proof.Gen.Kernel
import proofs.«417690_j12515534701155_2_alg».proof.Proof.Gen.Kernel.Skeleton
import proofs.«417690_j12515534701155_2_alg».proof.Proof.Gen.Kernel.Launch
import proofs.«417690_j12515534701155_2_alg».proof.Proof.Gen.Kernel.Points
import proofs.«417690_j12515534701155_2_alg».proof.Proof.Gen.Kernel.Frame
import proofs.«417690_j12515534701155_2_alg».proof.Proof.Gen.KernelIdeal
import proofs.«417690_j12515534701155_2_alg».proof.Proof.Gen.KernelIdeal.Skeleton
import proofs.«417690_j12515534701155_2_alg».proof.Proof.Gen.KernelIdeal.Launch
import proofs.«417690_j12515534701155_2_alg».proof.Proof.Gen.KernelIdeal.Points
import proofs.«417690_j12515534701155_2_alg».proof.Proof.Gen.KernelIdeal.Frame
import proofs.«417690_j12515534701155_2_alg».proof.Proof.Gen.ReferenceIdeal
import proofs.«417690_j12515534701155_2_alg».proof.Proof.Gen.Pre_finite_inputs
import proofs.«417690_j12515534701155_2_alg».proof.Proof.Gen.ReferenceIdeal.Run
import proofs.«417690_j12515534701155_2_alg».proof.Proof.Gen.ReferenceIdeal.Read
import proofs.«417690_j12515534701155_2_alg».proof.Proof.KernelRun
import proofs.«417690_j12515534701155_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the kernel program's result
    buffer ends at the reference's value function of ITS arguments, and the arguments agree. -/
theorem algebraic : Cert.algebraic_KernelIdeal_ReferenceIdeal := by
  intro m ρ m' ρ' _ hagree
  refine ⟨fun c => Cert.KernelIdeal.Gen.W15 m ρ c (Proc.devRef .tc Cert.KernelIdeal.main_v117),
    Cert.KernelIdeal.GenV.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v135_eq, h0, h1, h2, h3, h4, h5, h6, h7, h8]
  exact (Cert.KernelIdeal.KV.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
